-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 87
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1, .i32⟩
  | .hbm, ⟨38, _⟩ => ⟨S_, .i32⟩
  | .hbm, ⟨39, _⟩ => ⟨S1600000x1, .i32⟩
  | .hbm, ⟨40, _⟩ => ⟨S1600000x1, .i1⟩
  | .hbm, ⟨41, _⟩ => ⟨S1x1, .i32⟩
  | .hbm, ⟨42, _⟩ => ⟨S1600000x1, .i32⟩
  | .hbm, ⟨43, _⟩ => ⟨S1600000x1, .i1⟩
  | .hbm, ⟨44, _⟩ => ⟨S1600000x1, .i1⟩
  | .hbm, ⟨45, _⟩ => ⟨S_, .i1⟩
  | .hbm, ⟨46, _⟩ => ⟨S1600000, .i1⟩
  | .hbm, ⟨47, _⟩ => ⟨S1600000x128, .f32⟩
  | .hbm, ⟨48, _⟩ => ⟨S1600000x128, .i1⟩
  | .hbm, ⟨49, _⟩ => ⟨S_, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x64, .f32⟩
  | .hbm, ⟨77, _⟩ => ⟨S1600000x64, .i1⟩
  | .hbm, ⟨78, _⟩ => ⟨S_, .f32⟩
  | .hbm, ⟨79, _⟩ => ⟨S1600000x64, .f32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S128x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v24 : Ref sig .tc := ⟨.hbm, 80, rfl⟩
abbrev main_cst_4 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x64, .f32⟩
  | 72 => ⟨S_, .f32⟩
  | 73 => ⟨S100000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S_, .f32⟩
  | 83 => ⟨S1600000, .f32⟩
  | 84 => ⟨S100000, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x1, .f32⟩
  | 115 => ⟨S1600000x64, .f32⟩
  | 116 => ⟨S1600000x64, .f32⟩
  | 117 => ⟨S_, .f32⟩
  | 118 => ⟨S100000x64, .f32⟩
  | 119 => ⟨S1600000x1, .i32⟩
  | 120 => ⟨S100000x64, .f32⟩
  | 121 => ⟨S100000, .f32⟩
  | 122 => ⟨S100000x1, .f32⟩
  | 123 => ⟨S100000x64, .f32⟩
  | 124 => ⟨S100000x64, .f32⟩
  | 125 => ⟨S100000x64, .f32⟩
  | 126 => ⟨S1x64, .f32⟩
  | 127 => ⟨S100000x64, .f32⟩
  | _ => ⟨S100000x256, .f32⟩

abbrev hbmTy0_1 (i : Nat) : BufTy := match i % 128 with
  | 0 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KView.lean ====
/-
  The buffers of the idealized kernel program that the value argument reads, each at its literal array type.

  A valuation gives every buffer its contents at a type computed from the buffer's place in the program's table;
  arithmetic on entries wants the plain type, an array of extended reals or of 32-bit words over the buffer's
  index set. Each reader below is the valuation at one buffer, at that plain type.
-/
import proofs.«408347_j4329327034972_2_alg».proof.Proof.Gen.KernelIdeal
import Idealize.ShloMosaic.PureOps.Ideal

noncomputable section

namespace Cert.KernelIdeal.KView

open Cert.KernelIdeal Idealize.ShloMosaic Idealize.ShloMosaic.TcCoe Idealize.SL.Sem

/-- The contents of every TensorCore buffer, on every core, at the ideal instance. -/
abbrev Val : Type := (c : Dev nD) → (b : Ref sig .tc) → Buf (Elt Ideal) ((c : Thread nD τ).loc b)

/-- A family of per-core valuations, read at the TensorCore's buffers. -/
abbrev toVal (Wf : Dev nD → Valuation τ sig (Elt Ideal)) : Val := fun c b => Wf c b

abbrev rd_arg0 (V : Val) (c : Dev nD) : S100000x256.Idx → EReal := V c main_arg0
abbrev rd_arg1 (V : Val) (c : Dev nD) : S2x1600000.Idx → BitVec 32 := V c main_arg1
abbrev rd_arg2 (V : Val) (c : Dev nD) : S256x128.Idx → EReal := V c main_arg2
abbrev rd_arg3 (V : Val) (c : Dev nD) : S128.Idx → EReal := V c main_arg3
abbrev rd_arg4 (V : Val) (c : Dev nD) : S128x64.Idx → EReal := V c main_arg4
abbrev rd_arg5 (V : Val) (c : Dev nD) : S64.Idx → EReal := V c main_arg5
abbrev rd_v1 (V : Val) (c : Dev nD) : S1600000.Idx → BitVec 32 := V c main_v1
abbrev rd_v3 (V : Val) (c : Dev nD) : S1600000.Idx → BitVec 32 := V c main_v3
abbrev rd_v16 (V : Val) (c : Dev nD) : S100000x1.Idx → EReal := V c main_v16
abbrev rd_v17 (V : Val) (c : Dev nD) : S100000x128.Idx → EReal := V c main_v17
abbrev rd_v18 (V : Val) (c : Dev nD) : S1600000x128.Idx → EReal := V c main_v18
abbrev rd_v21 (V : Val) (c : Dev nD) : S100000x128.Idx → EReal := V c main_v21
abbrev rd_v22 (V : Val) (c : Dev nD) : S1x128.Idx → EReal := V c main_v22
abbrev rd_v23 (V : Val) (c : Dev nD) : S100000x64.Idx → EReal := V c main_v23
abbrev rd_v24 (V : Val) (c : Dev nD) : S1600000x64.Idx → EReal := V c main_v24
abbrev rd_v27 (V : Val) (c : Dev nD) : S100000x64.Idx → EReal := V c main_v27
abbrev rd_v28 (V : Val) (c : Dev nD) : S1x64.Idx → EReal := V c main_v28
abbrev rd_v29 (V : Val) (c : Dev nD) : S100000x64.Idx → EReal := V c main_v29

end Cert.KernelIdeal.KView

end
-- ==== Proof.Spec.lean ====
/-
  The two-layer graph convolution both programs compute, written once over the reals.

  A graph of 100000 nodes and 1600000 directed edges is given by a table of two rows of signed words: row 0 the
  source of each edge, row 1 its destination. A negative word is first moved up by 100000 (the usual reading of a
  negative position); a source word is then clamped into the node range; a destination word is compared, signed,
  with a node number, and an edge whose destination is no node contributes nowhere. The degree of node `v` is one
  more than the number of edges whose moved destination word is `v`, and `dinv v` is one over its square root.

  One layer takes node features `X`, a weight matrix `W` and a bias `b`, forms `h = X · W`, scales every row by the
  node's `dinv`, sums the scaled rows of the sources of the edges arriving at `v`, adds the node's own scaled row,
  scales the sum by `dinv v` again and adds the bias. The program applies a layer, the positive part, and a second
  layer. Every array of extended reals is read through its real parts; under the hypothesis that all its entries
  are real the two coincide.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-! ## One layer, over any sizes -/

section Layer

variable {N E K D : ℕ}

/-- The feature product `X · W` at node `v` and column `c`. -/
def featR (X : Fin N → Fin K → ℝ) (W : Fin K → Fin D → ℝ) (v : Fin N) (c : Fin D) : ℝ := ∑ k, X v k * W k c

/-- The sum, over the edges whose signed destination is node `v`, of the row of `f` at the edge's source. -/
def aggR (s : Fin E → Fin N) (d : Fin E → ℤ) (f : Fin N → Fin D → ℝ) (v : Fin N) (c : Fin D) : ℝ :=
  ∑ e, if d e = (v.val : ℤ) then f (s e) c else 0

/-- One layer: `dinv v · (Σ_{e → v} (h · dinv)[src e] + (h · dinv)[v]) + b` with `h = X · W`. -/
def layerR (s : Fin E → Fin N) (d : Fin E → ℤ) (dinv : Fin N → ℝ) (X : Fin N → Fin K → ℝ)
    (W : Fin K → Fin D → ℝ) (b : Fin D → ℝ) (v : Fin N) (c : Fin D) : ℝ :=
  dinv v * (aggR s d (fun u c => featR X W u c * dinv u) v c + featR X W v c * dinv v) + b c

end Layer

/-! ## Reading arrays of extended reals through their real parts -/

/-- Every entry is a real number. -/
def RealValued {S : Shape} (x : S.Idx → EReal) : Prop := ∀ i, x i = ((x i).toReal : EReal)

/-- The real parts of a matrix, by coordinates. -/
def mat {a b : ℕ} (x : (⟨2, ![a, b]⟩ : Shape).Idx → EReal) (i : Fin a) (j : Fin b) : ℝ := (x (ix2 i j)).toReal

/-- The real parts of a vector, by coordinate. -/
def vec {a : ℕ} (x : (⟨1, ![a]⟩ : Shape).Idx → EReal) (i : Fin a) : ℝ := (x (ix1 i)).toReal

theorem RealValued.mat_eq {a b : ℕ} {x : (⟨2, ![a, b]⟩ : Shape).Idx → EReal} (h : RealValued x) (i : Fin a) (j : Fin b) :
    x (ix2 i j) = ((mat x i j : ℝ) : EReal) := h _

theorem RealValued.vec_eq {a : ℕ} {x : (⟨1, ![a]⟩ : Shape).Idx → EReal} (h : RealValued x) (i : Fin a) :
    x (ix1 i) = ((vec x i : ℝ) : EReal) := h _

/-! ## The edge table -/

/-- The table of edges: two rows of 1600000 signed 32-bit words. -/
abbrev EdgeTable : Type := (⟨2, ![2, 1600000]⟩ : Shape).Idx → BitVec 32

/-- The source word of edge `e`. -/
def srcWord (ei : EdgeTable) (e : Fin 1600000) : BitVec 32 := ei (ix2 (0 : Fin 2) e)

/-- The destination word of edge `e`. -/
def dstWord (ei : EdgeTable) (e : Fin 1600000) : BitVec 32 := ei (ix2 (1 : Fin 2) e)

/-- A negative word is moved up by the number of nodes. -/
def wrapWord (b : BitVec 32) : BitVec 32 := Scalar.select (IntOp.cmpi .slt b 0#32) (IntOp.addi b 100000#32) b

/-- A signed word clamped into the node range. -/
def rowOf (b : BitVec 32) : Fin 100000 := ⟨min b.toInt.toNat 99999, by omega⟩

/-- The node an edge reads: its moved source word, clamped. -/
def srcRow (ei : EdgeTable) (e : Fin 1600000) : Fin 100000 := rowOf (wrapWord (srcWord ei e))

/-- The signed destination of an edge, as the row sums read it (not moved, not clamped). -/
def dstInt (ei : EdgeTable) (e : Fin 1600000) : ℤ := (dstWord ei e).toInt

/-- The signed moved destination of an edge, as the degree count reads it. -/
def dstWrapInt (ei : EdgeTable) (e : Fin 1600000) : ℤ := (wrapWord (dstWord ei e)).toInt

/-- Every source word is a node number. -/
def SrcInRange (ei : EdgeTable) : Prop := ∀ e, 0 ≤ (srcWord ei e).toInt ∧ (srcWord ei e).toInt < 100000

/-- The degree of a node, counting itself. -/
def degR (ei : EdgeTable) (v : Fin 100000) : ℝ :=
  (∑ e : Fin 1600000, if dstWrapInt ei e = (v.val : ℤ) then (1 : ℝ) else 0) + 1

/-- One over the square root of the degree. -/
def dinvR (ei : EdgeTable) (v : Fin 100000) : ℝ := (Real.sqrt (degR ei v))⁻¹

/-! ## The network -/

/-- The first layer's output. -/
def out1R (x0 : (⟨2, ![100000, 256]⟩ : Shape).Idx → EReal) (ei : EdgeTable) (x2 : (⟨2, ![256, 128]⟩ : Shape).Idx → EReal)
    (x3 : (⟨1, ![128]⟩ : Shape).Idx → EReal) : Fin 100000 → Fin 128 → ℝ :=
  layerR (srcRow ei) (dstInt ei) (dinvR ei) (mat x0) (mat x2) (vec x3)

/-- Its positive part, the second layer's input. -/
def act1R (x0 : (⟨2, ![100000, 256]⟩ : Shape).Idx → EReal) (ei : EdgeTable) (x2 : (⟨2, ![256, 128]⟩ : Shape).Idx → EReal)
    (x3 : (⟨1, ![128]⟩ : Shape).Idx → EReal) (v : Fin 100000) (c : Fin 128) : ℝ :=
  max (out1R x0 ei x2 x3 v c) 0

/-- The network's output. -/
def outR (x0 : (⟨2, ![100000, 256]⟩ : Shape).Idx → EReal) (ei : EdgeTable) (x2 : (⟨2, ![256, 128]⟩ : Shape).Idx → EReal)
    (x3 : (⟨1, ![128]⟩ : Shape).Idx → EReal) (x4 : (⟨2, ![128, 64]⟩ : Shape).Idx → EReal)
    (x5 : (⟨1, ![64]⟩ : Shape).Idx → EReal) : Fin 100000 → Fin 64 → ℝ :=
  layerR (srcRow ei) (dstInt ei) (dinvR ei) (act1R x0 ei x2 x3) (mat x4) (vec x5)

end Cert.Gcn

end
-- ==== Proof.Algebra.lean ====
/-
  The arithmetic that joins the two arrangements of a graph-convolution layer, over the extended reals.

  Every quantity here is the image of a real number, so sums, products and the positive part are computed in the
  reals and carried back. The one law with content: scaling each edge's contribution by `dinv (src) · dinv (dst)`
  before summing over the edges that arrive at `v` is the same as summing the rows already scaled by `dinv (src)`
  and scaling the sum by `dinv v`, because every edge of the sum has destination `v`.
-/
import proofs.«408347_j4329327034972_2_alg».proof.Proof.Spec

noncomputable section

open scoped BigOperators

namespace Cert.Gcn

open Idealize.ShloMosaic Idealize.ShloMosaic.ValueIdx

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A guarded image is the image of the guarded real. -/
theorem ite_coe (p : Prop) [Decidable p] (a : ℝ) : (if p then (a : EReal) else 0) = ((if p then a else 0 : ℝ) : EReal) := by
  by_cases h : p
  · rw [if_pos h, if_pos h]
  · rw [if_neg h, if_neg h, EReal.coe_zero]

section Layer

variable {N E K D : ℕ}

/-- A product of matrices with real entries, entry by entry. -/
theorem feat_coe (X : Fin N → Fin K → ℝ) (W : Fin K → Fin D → ℝ) (v : Fin N) (c : Fin D) :
    (∑ k : Fin K, (X v k : EReal) * (W k c : EReal)) = ((featR X W v c : ℝ) : EReal) := by
  unfold featR
  rw [coe_sum]
  exact Finset.sum_congr rfl (fun k _ => (EReal.coe_mul _ _).symm)

/-- A row sum over the edges arriving at `v`, into a zero array. -/
theorem agg_coe (s : Fin E → Fin N) (d : Fin E → ℤ) (f : Fin N → Fin D → ℝ) (v : Fin N) (c : Fin D) :
    (0 : EReal) + ∑ e : Fin E, (if d e = (v.val : ℤ) then ((f (s e) c : ℝ) : EReal) else 0)
      = ((aggR s d f v c : ℝ) : EReal) := by
  unfold aggR
  rw [zero_add, coe_sum]
  exact Finset.sum_congr rfl (fun e _ => ite_coe _ _)

/-- The layer as the first program arranges it: the scaled rows summed, then scaled and shifted. -/
theorem layer_scaled_coe (s : Fin E → Fin N) (d : Fin E → ℤ) (dinv : Fin N → ℝ) (X : Fin N → Fin K → ℝ)
    (W : Fin K → Fin D → ℝ) (b : Fin D → ℝ) (v : Fin N) (c : Fin D) :
    (dinv v : EReal) * (((aggR s d (fun u c => featR X W u c * dinv u) v c : ℝ) : EReal)
        + ((featR X W v c * dinv v : ℝ) : EReal)) + (b c : EReal)
      = ((layerR s d dinv X W b v c : ℝ) : EReal) := by
  unfold layerR
  rw [← EReal.coe_add, ← EReal.coe_mul, ← EReal.coe_add]

/-- The layer as the second program arranges it: each edge's row scaled by `dinv (src) · dinv (dst')`, where the
    clamped destination `d'` is `v` on every edge the sum keeps; then the node's own row scaled by `dinv v²`; then the
    bias. -/
theorem layer_edgewise_coe (s : Fin E → Fin N) (d : Fin E → ℤ) (d' : Fin E → Fin N) (dinv : Fin N → ℝ)
    (X : Fin N → Fin K → ℝ) (W : Fin K → Fin D → ℝ) (b : Fin D → ℝ) (v : Fin N) (c : Fin D)
    (hd : ∀ e, d e = (v.val : ℤ) → d' e = v) :
    (((0 : EReal) + ∑ e : Fin E, (if d e = (v.val : ℤ)
          then ((featR X W (s e) c : ℝ) : EReal) * ((dinv (s e) : EReal) * (dinv (d' e) : EReal)) else 0))
        + ((featR X W v c : ℝ) : EReal) * ((dinv v : EReal) * (dinv v : EReal))) + (b c : EReal)
      = ((layerR s d dinv X W b v c : ℝ) : EReal) := by
  -- On every edge the sum keeps, the clamped destination is `v`, so the edge's factor is `dinv (src) · dinv v`.
  have hsum : (∑ e : Fin E, (if d e = (v.val : ℤ)
          then ((featR X W (s e) c : ℝ) : EReal) * ((dinv (s e) : EReal) * (dinv (d' e) : EReal)) else 0))
      = ((∑ e : Fin E, (if d e = (v.val : ℤ) then featR X W (s e) c * (dinv (s e) * dinv v) else 0) : ℝ) : EReal) := by
    rw [coe_sum]
    refine Finset.sum_congr rfl (fun e _ => ?_)
    by_cases h : d e = (v.val : ℤ)
    · rw [if_pos h, if_pos h, hd e h, EReal.coe_mul, EReal.coe_mul]
    · rw [if_neg h, if_neg h, EReal.coe_zero]
  rw [hsum, zero_add, ← EReal.coe_mul, ← EReal.coe_mul, ← EReal.coe_add, ← EReal.coe_add]
  -- In the reals: pull the common factor `dinv v` out of the sum.
  congr 1
  unfold layerR aggR
  rw [mul_add, Finset.mul_sum]
  congr 1
  congr 1
  · refine Finset.sum_congr rfl (fun e _ => ?_)
    by_cases h : d e = (v.val : ℤ)
    · rw [if_pos h, if_pos h]; ring
    · rw [if_neg h, if_neg h, mul_zero]
  · ring

end Layer

/-- The positive part of a real, taken in the extended reals. -/
theorem max_coe_zero (a : ℝ) : max (a : EReal) 0 = ((max a 0 : ℝ) : EReal) := by
  rcases le_total a 0 with h | h
  · rw [max_eq_right h, max_eq_right (by rw [← EReal.coe_zero]; exact EReal.coe_le_coe_iff.mpr h), EReal.coe_zero]
  · rw [max_eq_left h, max_eq_left (by rw [← EReal.coe_zero]; exact EReal.coe_le_coe_iff.mpr h)]

/-- The count of the edges arriving at `v`, taken in the extended reals, is the image of the real count. -/
private theorem deg_sum_coe (ei : EdgeTable) (v : Fin 100000) :
    (∑ e : Fin 1600000, (if dstWrapInt ei e = (v.val : ℤ) then (1 : EReal) else 0))
      = ((∑ e : Fin 1600000, (if dstWrapInt ei e = (v.val : ℤ) then (1 : ℝ) else 0) : ℝ) : EReal) := by
  rw [coe_sum]
  refine Finset.sum_congr rfl (fun e _ => ?_)
  by_cases h : dstWrapInt ei e = (v.val : ℤ)
  · rw [if_pos h, if_pos h, EReal.coe_one]
  · rw [if_neg h, if_neg h, EReal.coe_zero]

/-- The degree counted from zero, plus one. -/
theorem deg_from_zero (ei : EdgeTable) (v : Fin 100000) :
    ((0 : EReal) + ∑ e : Fin 1600000, (if dstWrapInt ei e = (v.val : ℤ) then (1 : EReal) else 0)) + 1
      = ((degR ei v : ℝ) : EReal) := by
  rw [zero_add, deg_sum_coe, ← EReal.coe_one, ← EReal.coe_add]
  rfl

/-- The degree counted from one. -/
theorem deg_from_one (ei : EdgeTable) (v : Fin 100000) :
    (1 : EReal) + ∑ e : Fin 1600000, (if dstWrapInt ei e = (v.val : ℤ) then (1 : EReal) else 0)
      = ((degR ei v : ℝ) : EReal) := by
  rw [deg_sum_coe, ← EReal.coe_one, ← EReal.coe_add, add_comm]
  rfl

/-- The degree is at least one. -/
theorem one_le_degR (ei : EdgeTable) (v : Fin 100000) : 1 ≤ degR ei v := by
  unfold degR
  have h0 : 0 ≤ ∑ e : Fin 1600000, (if dstWrapInt ei e = (v.val : ℤ) then (1 : ℝ) else 0) :=
    Finset.sum_nonneg (fun e _ => by
      by_cases h : dstWrapInt ei e = (v.val : ℤ)
      · rw [if_pos h]; exact zero_le_one
      · rw [if_neg h])
  linarith

/-- One over the square root of the degree, as the extended reals compute it. -/
theorem rsqrt_deg (ei : EdgeTable) (v : Fin 100000) :
    Ideal.rsqrt ((degR ei v : ℝ) : EReal) = ((dinvR ei v : ℝ) : EReal) := by
  have h := one_le_degR ei v
  rw [Ideal.rsqrt_coe, if_neg (by linarith), if_neg (by linarith)]
  rfl

/-- The constant one. -/
theorem ofBits_one_f32 : Ideal.ofBits .f32 0x3F800000#32 = 1 := by
  simp [Ideal.ofBits, Ideal.ieee, -EReal.coe_mul]
  norm_num

end Cert.Gcn

end
-- ==== Proof.Words.lean ====
/-
  Signed 32-bit words as node numbers.

  A word whose signed value is nonnegative is not moved; a word whose signed value is a node number `v` is clamped to
  `v` itself and passes the range test `0 ≤ · ≤ 99999`.
-/
import proofs.«408347_j4329327034972_2_alg».proof.Proof.Spec
import Idealize.ShloMosaic.Lib.StableHlo.Predicate

noncomputable section

namespace Cert.Gcn

open Idealize.ShloMosaic Idealize.ShloMosaic.ValueIdx

/-- The signed value of the zero word. -/
private theorem toInt_zero32 : (0#32 : BitVec 32).toInt = 0 := by decide

/-- The signed value of the last node's word. -/
private theorem toInt_last32 : (99999#32 : BitVec 32).toInt = 99999 := by decide

/-- The signed comparison with zero. -/
theorem slt_zero_iff (b : BitVec 32) : IntOp.cmpi .slt b 0#32 = 1#1 ↔ b.toInt < 0 := by
  simp only [IntOp.cmpi, StableHlo.Predicate.ofBool_eq_one_iff, BitVec.slt, toInt_zero32, decide_eq_true_eq]

/-- A nonnegative word is not moved. -/
theorem wrapWord_of_nonneg (b : BitVec 32) (h : 0 ≤ b.toInt) : wrapWord b = b := by
  -- the test "signed value below zero" fails, so the selection keeps the word itself
  have hc : ¬ IntOp.cmpi .slt b 0#32 = 1#1 := by rw [slt_zero_iff]; omega
  unfold wrapWord Scalar.select
  exact if_neg hc

/-- A word whose signed value is the node `v` is clamped to `v`. -/
theorem rowOf_of_toInt (b : BitVec 32) (v : Fin 100000) (h : b.toInt = (v.val : ℤ)) : rowOf b = v := by
  -- min (max v 0) 99999 = v for a node number v ≤ 99999
  apply Fin.ext
  show min b.toInt.toNat 99999 = v.val
  have hv := v.isLt
  omega

/-- The same after the move, which leaves a nonnegative word alone. -/
theorem rowOf_wrapWord_of_toInt (b : BitVec 32) (v : Fin 100000) (h : b.toInt = (v.val : ℤ)) : rowOf (wrapWord b) = v := by
  rw [wrapWord_of_nonneg b (by omega)]
  exact rowOf_of_toInt b v h

/-- A node number passes the lower range test. -/
theorem sge_zero_of_nonneg (b : BitVec 32) (h : 0 ≤ b.toInt) : IntOp.cmpi .sge b 0#32 = 1#1 := by
  -- "b ≥ 0" is computed as "0 ≤ b" on signed values
  simp only [IntOp.cmpi, StableHlo.Predicate.ofBool_eq_one_iff, BitVec.sle, toInt_zero32, decide_eq_true_eq]
  exact h

/-- A node number passes the upper range test. -/
theorem sle_last_of_lt (b : BitVec 32) (h : b.toInt < 100000) : IntOp.cmpi .sle b 99999#32 = 1#1 := by
  simp only [IntOp.cmpi, StableHlo.Predicate.ofBool_eq_one_iff, BitVec.sle, toInt_last32, decide_eq_true_eq]
  omega

/-- Under the range hypothesis the source word of an edge is not moved. -/
theorem wrapWord_srcWord (ei : EdgeTable) (h : SrcInRange ei) (e : Fin 1600000) : wrapWord (srcWord ei e) = srcWord ei e :=
  wrapWord_of_nonneg _ (h e).1

end Cert.Gcn

end
-- ==== Proof.KFold.lean ====
/-
  What a region leaves in the buffers the later stretches and regions read.

  A region writes its output array, block by block, and nothing else: its input arrays end as it found them and
  every other buffer is untouched. So across a region the output array is what its write-backs leave and each of
  the other buffers read later keeps its contents.
-/
import proofs.«408347_j4329327034972_2_alg».proof.Proof.Gen.KernelIdeal.Frame
import proofs.«408347_j4329327034972_2_alg».proof.Proof.KView

set_option maxRecDepth 16384

noncomputable section

namespace Cert.KernelIdeal.KFold

open Cert.KernelIdeal Cert.KernelIdeal.Gen Cert.KernelIdeal.KView
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## Across the first region -/

/-- The first region's output array is what its write-backs leave. -/
theorem res0 (c : Dev nD) : rd_v17 (V2 m ρ) c = (dat0 (F := Ideal) (V1 m ρ) c).arrAt 3 cfg0.N := by
  exact W2_arr m ρ c 3

theorem keep0_v1 (c : Dev nD) : rd_v1 (V2 m ρ) c = rd_v1 (V1 m ρ) c := by
  exact W2_of_ne m ρ c main_v1 (by decide)
theorem keep0_v3 (c : Dev nD) : rd_v3 (V2 m ρ) c = rd_v3 (V1 m ρ) c := by
  exact W2_of_ne m ρ c main_v3 (by decide)
/-- An input array of the region ends as the region found it. -/
theorem keep0_v16 (c : Dev nD) : rd_v16 (V2 m ρ) c = rd_v16 (V1 m ρ) c := by
  -- the array is the region's third window, an input: its final contents are its entry contents
  exact (W2_arr m ρ c 2).trans (((dat0 (V1 m ρ) c).arrAt_in 2 rfl _).trans (A_eq0 (V1 m ρ) c 2))
theorem keep0_arg3 (c : Dev nD) : rd_arg3 (V2 m ρ) c = rd_arg3 (V1 m ρ) c := by
  exact W2_of_ne m ρ c main_arg3 (by decide)
theorem keep0_arg4 (c : Dev nD) : rd_arg4 (V2 m ρ) c = rd_arg4 (V1 m ρ) c := by
  exact W2_of_ne m ρ c main_arg4 (by decide)
theorem keep0_arg5 (c : Dev nD) : rd_arg5 (V2 m ρ) c = rd_arg5 (V1 m ρ) c := by
  exact W2_of_ne m ρ c main_arg5 (by decide)

/-! ## Across the second region -/

/-- The second region's output array is what its write-backs leave. -/
theorem res1 (c : Dev nD) : rd_v23 (V5 m ρ) c = (dat1 (F := Ideal) (V4 m ρ) c).arrAt 5 cfg1.N := by
  exact W5_arr m ρ c 5

theorem keep1_v1 (c : Dev nD) : rd_v1 (V5 m ρ) c = rd_v1 (V4 m ρ) c := by
  exact W5_of_ne m ρ c main_v1 (by decide)
theorem keep1_v3 (c : Dev nD) : rd_v3 (V5 m ρ) c = rd_v3 (V4 m ρ) c := by
  exact W5_of_ne m ρ c main_v3 (by decide)
/-- An input array of the region ends as the region found it. -/
theorem keep1_v16 (c : Dev nD) : rd_v16 (V5 m ρ) c = rd_v16 (V4 m ρ) c := by
  -- the array is the region's third window, an input: its final contents are its entry contents
  exact (W5_arr m ρ c 2).trans (((dat1 (V4 m ρ) c).arrAt_in 2 rfl _).trans (A_eq1 (V4 m ρ) c 2))
theorem keep1_arg5 (c : Dev nD) : rd_arg5 (V5 m ρ) c = rd_arg5 (V4 m ρ) c := by
  exact W5_of_ne m ρ c main_arg5 (by decide)

/-! ## Across the third region -/

/-- The third region's output array, the program's result, is what its write-backs leave. -/
theorem res2 (c : Dev nD) : rd_v29 (V8 m ρ) c = (dat2 (F := Ideal) (V7 m ρ) c).arrAt 4 cfg2.N := by
  exact W8_arr m ρ c 4

end Cert.KernelIdeal.KFold

end
-- ==== Proof.LibVecScatter.lean ====
/-
  A scatter-add of scalars into a vector, read at an index, over the extended reals.

  What a count of occurrences, or a segment sum of a VECTOR of updates `upd : [E]` at a column of indices
  `idx : [E, 1]` into an operand `x : [N]`, lowers to: a `stablehlo.scatter` with an add body that has no update
  window at all (update_window_dims `[]`), whose one operand axis is inserted (inserted_window_dims `[0]`) and is
  the axis the index vector addresses (scatter_dims_to_operand_dims `[0]`, index_vector_dim `1`): the scalar
  `upd[e]` is added to the entry `idx[e, 0]` of the operand. Over the extended reals entry `v` of the result is the
  operand's entry plus the sum of `upd[e]` over the positions `e` whose index word `idx[e, 0]`, read as a signed
  integer and NOT clamped, is `v`; a position whose signed index is no entry of the operand adds nothing anywhere.
-/
import Idealize.ShloMosaic.PureOps.Ideal
import Idealize.ShloMosaic.Lib.ValueIdx

noncomputable section

open scoped BigOperators

namespace Cert.LibVecScatter

open Idealize.ShloMosaic Idealize.ShloMosaic.ValueIdx

/-! ## A rank-1 index set is its coordinate -/

/-- The indices of a vector of length `n` are the numbers below `n`. -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where a scalar update lands

The operand has one axis. It is inserted, so an update has no window coordinate on it; it is the axis the index
vector addresses, so the window of update `e` starts at the signed word `idx[e, 0]`. The landing coordinate,
start plus window coordinate, is therefore that signed word itself. -/

section Landing

variable {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

/-- The landing coordinate of update `e` on the operand's axis is its signed index word. -/
theorem landing_coord (idx : IVec (⟨2, ![E, 1]⟩ : Shape) w) (e : Fin E) :
    s.start (ix1 e) idx 0 + (s.window (ix1 e) 0 : ℤ) = (idx (ix2 e (0 : Fin 1))).toInt := by
  obtain ⟨uw, iw, sd, iv, wf⟩ := s
  subst huw hiw hsd hiv
  have hwin : (ScatterDims.mk [] [0] [0] 1 wf).window (ix1 e) 0 = 0 := rfl
  have hst : (ScatterDims.mk [] [0] [0] 1 wf).start (ix1 e) idx 0 = (idx (ix2 e (0 : Fin 1))).toInt := by
    unfold ScatterDims.start
    rw [dif_pos (List.mem_singleton.mpr rfl)]
    refine congrArg (fun i => (idx i).toInt) (funext fun b => Fin.ext ?_)
    match b with
    | ⟨0, _⟩ => rfl
    | ⟨1, _⟩ => rfl
  rw [hwin, hst]
  simp

/-- WHERE A SCALAR UPDATE LANDS: update `e` lands on entry `v` exactly when its signed index word is `v`. If the
    landing index exists its coordinate, the `toNat` of a nonnegative integer, is `v`; conversely the signed word
    `v` is in range because `v < N`. -/
theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  have hc := landing_coord s huw hiw hsd hiv idx e
  unfold ScatterDims.resultIdx?
  constructor
  · intro h
    split at h
    · rename_i hr
      have e0 := congrArg Fin.val (congrFun (Option.some.inj h) 0)
      have r0 := (hr 0).1
      rw [hc] at r0
      simp only [hc] at e0
      change _ = v.val at e0
      omega
    · exact absurd h (by simp)
  · intro hv
    have hr : ∀ a, 0 ≤ s.start (ix1 e) idx a + s.window (ix1 e) a ∧
        s.start (ix1 e) idx a + s.window (ix1 e) a < (⟨1, ![N]⟩ : Shape).size a := by
      intro a
      match a with
      | ⟨0, _⟩ =>
        show 0 ≤ s.start (ix1 e) idx 0 + s.window (ix1 e) 0 ∧ s.start (ix1 e) idx 0 + s.window (ix1 e) 0 < (N : ℤ)
        rw [hc, hv]; have := v.isLt; omega
    rw [dif_pos hr]
    refine congrArg some (funext fun a => Fin.ext ?_)
    match a with
    | ⟨0, _⟩ =>
      show (s.start (ix1 e) idx 0 + s.window (ix1 e) 0).toNat = v.val
      rw [hc, hv]; omega

end Landing

/-! ## The scatter-add read at an entry -/

/-- THE SCATTER-ADD OF SCALARS READ AT `v`: for any dimension-number record of this form, the operand's entry plus
    the sum over the positions `e` whose signed index word is `v` of the scalar `upd[e]`. The sum over the updates
    that land on `v` is a sum of guarded terms over all positions, and the guard is the landing condition. -/
theorem vecScatterAdd_apply {φ : FTy} {N E w : Nat}
    (s : ScatterDims (⟨1, ![N]⟩ : Shape) (⟨2, ![E, 1]⟩ : Shape) (⟨1, ![E]⟩ : Shape))
    (huw : s.updateWindowDims = []) (hiw : s.insertedWindowDims = [0])
    (hsd : s.scatterDimsToOperandDims = [0]) (hiv : s.indexVectorDim = 1)
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  refine congrArg (x (ix1 v) + ·) ?_
  rw [Finset.sum_filter, sum_idx1]
  exact Finset.sum_congr rfl fun e _ => if_congr (resultIdx?_eq_some_iff s huw hiw hsd hiv idx e v) rfl rfl

end Cert.LibVecScatter

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.KHost0.lean ====
/-
  The host operations before the first region: the two rows of the edge table, the degrees and `dinv`.

  From the edge table the stretch cuts the row of source words and the row of destination words, moves the negative
  destination words up by the number of nodes, counts into a zero vector how many edges have each node as their moved
  destination, adds one, takes one over the square root, and lays the result out as a column. No argument is written.
-/
import proofs.«408347_j4329327034972_2_alg».proof.Proof.Gen.KernelIdeal.Launch
import proofs.«408347_j4329327034972_2_alg».proof.Proof.KView
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibVecScatter
import proofs.«408347_j4329327034972_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KHost0

open Cert.KernelIdeal Cert.KernelIdeal.Gen Cert.KernelIdeal.KView Cert.Gcn
open Idealize.ShloMosaic Idealize.ShloMosaic.TcCoe Idealize.ShloMosaic.ValueIdx Idealize.SL.Sem

/-! ## The stretch's operations read at a position -/

/-- A row of the edge table, cut out as a block of one row and laid flat, reads at `e` the table at `(r, e)`. -/
theorem row_apply (ei : S2x1600000.Idx → BitVec 32) (r : Fin 2) (off : Fin 2 → Nat) (h0 : off 0 = r.val) (h1 : off 1 = 0)
    (hs : S2x1600000.Slices off S1x1600000) (hc : S1x1600000.ShapeCasts S1600000) (e : Fin 1600000) :
    shapeCast S1600000 (extractStridedSlice S1x1600000 off ei hs) hc (ix1 e) = ei (ix2 r e) := by
  -- position `e` of the flat vector is position `(0, e)` of the block, which is position `(r, e)` of the table
  refine (shapeCast_apply _ hc (ix1 e) (ix2 (0 : Fin 1) e) ?_).trans ?_
  · rw [Shape.rowMajor_val_two, Shape.rowMajor_val_one]
    show 0 * 1600000 + e.val = e.val
    omega
  · refine extractStridedSlice_apply off ei hs _ (ix2 r e) fun a => ?_
    match a with
    | ⟨0, _⟩ =>
      show r.val = off 0 + 0
      omega
    | ⟨1, _⟩ =>
      show e.val = off 1 + e.val
      omega

/-- The vector of destination words: row 1 of the table, laid flat. -/
abbrev dstVec (ei : S2x1600000.Idx → BitVec 32) : S1600000.Idx → BitVec 32 :=
  shapeCast S1600000 (extractStridedSlice S1x1600000 ![1, 0] ei slices_S2x1600000_S1x1600000_1_0) shapeCasts_S1x1600000_S1600000

/-- The vector of moved destination words: where a word is below zero, the word plus the number of nodes. -/
abbrev movedVec (ei : S2x1600000.Idx → BitVec 32) : S1600000.Idx → BitVec 32 :=
  select (cmpi .slt (dstVec ei) (broadcastInDim S1600000 ![] bcast_S_S1600000 (constantI S_ 32 0#32)))
    (addi (dstVec ei) (broadcastInDim S1600000 ![] bcast_S_S1600000 (constantI S_ 32 100000#32))) (dstVec ei)

/-- The moved destination word of edge `e`. The comparison, the sum and the selection act position by position, and
    the two constants are the same word at every position. -/
theorem movedVec_apply (ei : S2x1600000.Idx → BitVec 32) (e : Fin 1600000) :
    movedVec ei (ix1 e) = wrapWord (dstWord ei e) := by
  have hd : dstVec ei (ix1 e) = dstWord ei e := row_apply ei 1 ![1, 0] rfl rfl _ _ e
  show Scalar.select (IntOp.cmpi .slt (dstVec ei (ix1 e)) 0#32) (IntOp.addi (dstVec ei (ix1 e)) 100000#32) (dstVec ei (ix1 e)) = _
  rw [hd]
  rfl

/-- The count, into a zero vector, of the positions whose index word is `v`: zero plus a sum of ones. The index column
    at `(e, 0)` is the index vector at `e`; the zero and the ones are constants. -/
theorem count_apply (w : S1600000.Idx → BitVec 32) (v : Fin 100000) :
    Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 w)
        (broadcastInDim S1600000 ![] bcast_S_S1600000 (constant (F := Ideal) S_ .f32 0x3F800000#32)) (ix1 v)
      = (0 : EReal) + ∑ e : Fin 1600000, if (w (ix1 e)).toInt = (v.val : ℤ) then (1 : EReal) else 0 := by
  rw [Cert.LibVecScatter.vecScatterAdd_apply _ rfl rfl rfl rfl]
  have hx : (broadcastInDim S100000 ![] bcast_S_S100000 (constant (F := Ideal) S_ .f32 0x00000000#32)) (ix1 v) = (0 : EReal) :=
    Ideal.ofBits_zero_f32
  have hu : ∀ e : Fin 1600000,
      (broadcastInDim S1600000 ![] bcast_S_S1600000 (constant (F := Ideal) S_ .f32 0x3F800000#32)) (ix1 e) = (1 : EReal) :=
    fun e => ofBits_one_f32
  have hi : ∀ e : Fin 1600000, (broadcastInDim S1600000x1 ![0] bcast_S1600000_S1600000x1_0 w) (ix2 e (0 : Fin 1)) = w (ix1 e) := by
    intro e
    refine broadcastInDim_apply _ _ w _ (ix1 e) fun a => ?_
    match a with
    | ⟨0, _⟩ => rfl
  rw [hx]
  refine congrArg ((0 : EReal) + ·) (Finset.sum_congr rfl fun e _ => ?_)
  rw [hi e, hu e]

/-! ## The three arrays the stretch leaves -/
-- every core's buffer contents before the stretch
variable (Wf : Dev nD → Valuation τ sig (Elt Ideal))

/-- Every core's buffer contents after the stretch. -/
abbrev aft : Dev nD → Valuation τ sig (Elt Ideal) := fun c => StableHlo.after hostOps0 (Wf c)

/-- The vector of source words is row 0 of the edge table. -/
theorem src (c : Dev nD) (e : Fin 1600000) :
    rd_v1 (toVal (aft Wf)) c (ix1 e) = srcWord (rd_arg1 (toVal Wf) c) e := by
  have e1 : (StableHlo.after hostOps0 (Wf c) (Proc.devRef .tc main_v1) : S1600000.Idx → BitVec 32)
      = shapeCast S1600000 (extractStridedSlice S1x1600000 ![0, 0] (rd_arg1 (toVal Wf) c) slices_S2x1600000_S1x1600000_0_0)
          shapeCasts_S1x1600000_S1600000 := by
    dsimp only [hostOps0]
    after_results
    rfl
  show (StableHlo.after hostOps0 (Wf c) (Proc.devRef .tc main_v1) : S1600000.Idx → BitVec 32) (ix1 e) = _
  rw [e1]
  exact row_apply _ 0 ![0, 0] rfl rfl _ _ e

/-- The vector of destination words is row 1 of the edge table. -/
theorem dst (c : Dev nD) (e : Fin 1600000) :
    rd_v3 (toVal (aft Wf)) c (ix1 e) = dstWord (rd_arg1 (toVal Wf) c) e := by
  have e1 : (StableHlo.after hostOps0 (Wf c) (Proc.devRef .tc main_v3) : S1600000.Idx → BitVec 32)
      = dstVec (rd_arg1 (toVal Wf) c) := by
    dsimp only [hostOps0]
    after_results
    rfl
  show (StableHlo.after hostOps0 (Wf c) (Proc.devRef .tc main_v3) : S1600000.Idx → BitVec 32) (ix1 e) = _
  rw [e1]
  exact row_apply _ 1 ![1, 0] rfl rfl _ _ e

/-- The column of `dinv`: one over the square root of the degree, a real number. -/
theorem dinv (c : Dev nD) (v : Fin 100000) :
    rd_v16 (toVal (aft Wf)) c (ix2 v (0 : Fin 1)) = ((dinvR (rd_arg1 (toVal Wf) c) v : ℝ) : EReal) := by
  have e1 : (StableHlo.after hostOps0 (Wf c) (Proc.devRef .tc main_v16) : S100000x1.Idx → EReal)
      = shapeCast S100000x1
          (Host.rsqrt (addf
            (Host.scatterAdd scatter_S100000_S1600000x1_S1600000_n_0_0_1
              (broadcastInDim S100000 ![] bcast_S_S100000 (constant (F := Ideal) S_ .f32 0x00000000#32))
              (broadcastInDim S1600000x1 ![0] bcast_S1600000_S1600000x1_0 (movedVec (rd_arg1 (toVal Wf) c)))
              (broadcastInDim S1600000 ![] bcast_S_S1600000 (constant (F := Ideal) S_ .f32 0x3F800000#32)))
            (broadcastInDim S100000 ![] bcast_S_S100000 (constant (F := Ideal) S_ .f32 0x3F800000#32))))
          shapeCasts_S100000_S100000x1 := by
    dsimp only [hostOps0]
    after_results
    rfl
  show (StableHlo.after hostOps0 (Wf c) (Proc.devRef .tc main_v16) : S100000x1.Idx → EReal) (ix2 v (0 : Fin 1)) = _
  -- the column at `(v, 0)` is the vector at `v`: one over the square root of the count plus one
  rw [e1, Cert.Lib.Keepdims.shapeCast_a_a1_apply]
  have hr : ∀ (a b : FVec Ideal S100000 .f32) (i : S100000.Idx), Host.rsqrt (addf a b) i = Ideal.rsqrt (a i + b i) :=
    fun _ _ _ => rfl
  have h1 : (broadcastInDim S100000 ![] bcast_S_S100000 (constant (F := Ideal) S_ .f32 0x3F800000#32)) (ix1 v) = (1 : EReal) :=
    ofBits_one_f32
  rw [hr, count_apply, h1]
  -- the index word of edge `e` is its moved destination word, so the count is the degree's
  have hs : (∑ e : Fin 1600000, if (movedVec (rd_arg1 (toVal Wf) c) (ix1 e)).toInt = (v.val : ℤ) then (1 : EReal) else 0)
      = ∑ e : Fin 1600000, if dstWrapInt (rd_arg1 (toVal Wf) c) e = (v.val : ℤ) then (1 : EReal) else 0 :=
    Finset.sum_congr rfl fun e _ => by rw [movedVec_apply]; rfl
  rw [hs, deg_from_zero, rsqrt_deg]

/-- No argument is written. -/
theorem keep_arg0 (c : Dev nD) : rd_arg0 (toVal (aft Wf)) c = rd_arg0 (toVal Wf) c := by
  show StableHlo.after hostOps0 (Wf c) (Proc.devRef .tc main_arg0) = Wf c (Proc.devRef .tc main_arg0)
  exact StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem keep_arg1 (c : Dev nD) : rd_arg1 (toVal (aft Wf)) c = rd_arg1 (toVal Wf) c := by
  show StableHlo.after hostOps0 (Wf c) (Proc.devRef .tc main_arg1) = Wf c (Proc.devRef .tc main_arg1)
  exact StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem keep_arg2 (c : Dev nD) : rd_arg2 (toVal (aft Wf)) c = rd_arg2 (toVal Wf) c := by
  show StableHlo.after hostOps0 (Wf c) (Proc.devRef .tc main_arg2) = Wf c (Proc.devRef .tc main_arg2)
  exact StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem keep_arg3 (c : Dev nD) : rd_arg3 (toVal (aft Wf)) c = rd_arg3 (toVal Wf) c := by
  show StableHlo.after hostOps0 (Wf c) (Proc.devRef .tc main_arg3) = Wf c (Proc.devRef .tc main_arg3)
  exact StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem keep_arg4 (c : Dev nD) : rd_arg4 (toVal (aft Wf)) c = rd_arg4 (toVal Wf) c := by
  show StableHlo.after hostOps0 (Wf c) (Proc.devRef .tc main_arg4) = Wf c (Proc.devRef .tc main_arg4)
  exact StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem keep_arg5 (c : Dev nD) : rd_arg5 (toVal (aft Wf)) c = rd_arg5 (toVal Wf) c := by
  show StableHlo.after hostOps0 (Wf c) (Proc.devRef .tc main_arg5) = Wf c (Proc.devRef .tc main_arg5)
  exact StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.KHost0

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.LibGatherRows.lean ====
/-
  A gather of rows, read at an index.

  What `h[idx]` of a matrix `h : [N, D]` at a column of row numbers `idx : [E, 1]` lowers to: a `stablehlo.gather`
  whose one offset axis is the result's second (offset_dims `[1]`), whose operand row axis is collapsed and is the one
  axis a start index addresses (collapsed_slice_dims `[0]`, start_index_map `[0]`, index_vector_dim `1`), with slices of
  one whole row (slice_sizes `[1, D]`). Result element `(e, q)` is the operand at row `idx[e, 0]`, read as a signed
  integer and clamped into `[0, N − 1]`, and column `q`.
-/
import Idealize.ShloMosaic.PureOps.Ideal
import Idealize.ShloMosaic.Lib.ValueIdx

noncomputable section

namespace Cert.LibGatherRows

open Idealize.ShloMosaic Idealize.ShloMosaic.ValueIdx

/-- The row a start index names: the signed word clamped into `[0, N − 1]`. -/
def clampRow {w : Nat} (N : Nat) (hN : 0 < N) (b : BitVec w) : Fin N := ⟨min b.toInt.toNat (N - 1), by omega⟩

/-! ## The coordinates of the operand index

For a result index `(e, q)`. The operand's row axis is collapsed and is the one axis the start index addresses: its
slice has size one, so its start is the signed word `idx[e, 0]` clamped into `[0, N − 1]`, and it carries no offset
coordinate. The operand's column axis is the one kept axis and no start index addresses it: its start is `0` and its
offset coordinate is the result's coordinate on the one offset axis, the column `q`. No axis is a batching axis. Each
fact is read off the record once its lists are the stated literals. -/

section Coordinates

variable {N E D w : Nat}
  (d : GatherDims (⟨2, ![N, D]⟩ : Shape) (⟨2, ![E, 1]⟩ : Shape) (⟨2, ![E, D]⟩ : Shape))
  (hoff : d.offsetDims = [1]) (hcoll : d.collapsedSliceDims = [0]) (hob : d.operandBatchingDims = [])
  (hsim : d.startIndexMap = [0]) (hivd : d.indexVectorDim = 1)

include hoff hcoll hob hsim hivd

/-- The start-indices index result index `(e, q)` reads: the batch coordinate `e` on axis 0 (the result's one batch
    axis is its first) and the one component, `0`, on the index vector's axis. -/
theorem siIdx_row (e : Fin E) (q : Fin D) (c : Fin d.startIndexMap.length) :
    d.siIdx (ix2 e q) c = ix2 e (0 : Fin 1) := by
  obtain ⟨od, cd, ob, sb, sm, iv, ss, wf⟩ := d
  subst hoff hcoll hob hsim hivd
  funext b
  refine Fin.ext ?_
  match b with
  | ⟨0, _⟩ => rfl
  | ⟨1, _⟩ =>
    have hc : c.val < 1 := c.isLt
    show c.val = 0
    omega

/-- On the operand's row axis the slice starts at the signed start index clamped into `[0, N − 1]`. -/
theorem start_row (idx : IVec (⟨2, ![E, 1]⟩ : Shape) w) (e : Fin E) (q : Fin D) :
    d.start (ix2 e q) idx 0 = min (idx (ix2 e (0 : Fin 1))).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_row d hoff hcoll hob hsim hivd e q, hsl]
  rfl

/-- On the operand's column axis, which no start index addresses, the slice starts at `0`. -/
theorem start_col (idx : IVec (⟨2, ![E, 1]⟩ : Shape) w) (e : Fin E) (q : Fin D) :
    d.start (ix2 e q) idx 1 = 0 := by
  unfold GatherDims.start
  exact dif_neg fun h => Nat.one_ne_zero (congrArg Fin.val (List.mem_singleton.mp (hsim ▸ h)))

/-- No operand axis is a batching axis: the batching coordinate is `0`. -/
theorem batchCoord_zero (e : Fin E) (q : Fin D) (a : Fin 2) : d.batchCoord (ix2 e q) a = 0 :=
  d.batchCoord_eq_zero _ a (by rw [hob]; exact List.not_mem_nil)

/-- The operand's row axis is collapsed: its offset coordinate is `0`. -/
theorem offCoord_row (e : Fin E) (q : Fin D) : d.offCoord (ix2 e q) 0 = 0 :=
  d.offCoord_eq_zero _ 0 fun h => ((d.mem_sKept 0).mp h).1 (by rw [hcoll]; exact List.mem_singleton.mpr rfl)

/-- The operand's column axis is its one kept axis, read by the result's one offset axis: its offset coordinate is
    the result's column. -/
theorem offCoord_col (e : Fin E) (q : Fin D) : d.offCoord (ix2 e q) 1 = q.val := by
  obtain ⟨od, cd, ob, sb, sm, iv, ss, wf⟩ := d
  subst hoff hcoll hob hsim hivd
  rfl

end Coordinates

/-- THE GATHER OF ROWS READ AT `(e, q)`: the operand at the clamped row `idx[e, 0]` names and at column `q`. -/
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  unfold Host.gather
  refine congrArg x ?_
  funext a
  refine Fin.ext ?_
  match a with
  | ⟨0, _⟩ =>
    show d.start (ix2 e q) idx 0 + d.batchCoord (ix2 e q) 0 + d.offCoord (ix2 e q) 0
      = min (idx (ix2 e (0 : Fin 1))).toInt.toNat (N - 1)
    rw [start_row d hoff hcoll hob hsim hivd idx e q, batchCoord_zero d hoff hcoll hob hsim hivd e q 0,
      offCoord_row d hoff hcoll hob hsim hivd e q]
    rfl
  | ⟨1, _⟩ =>
    show d.start (ix2 e q) idx 1 + d.batchCoord (ix2 e q) 1 + d.offCoord (ix2 e q) 1 = q.val
    rw [start_col d hoff hcoll hob hsim hivd idx e q, batchCoord_zero d hoff hcoll hob hsim hivd e q 1,
      offCoord_col d hoff hcoll hob hsim hivd e q]
    omega

end Cert.LibGatherRows

end
-- ==== Proof.KTake1.lean ====
/-
  The host operations between two regions: the rows of the scaled features at the edges' sources, summed at the
  edges' destinations, and the bias laid out as a row.

  For each edge the stretch moves a negative source word up by the number of nodes, reads the row of the scaled
  features that the moved word names (clamped into the node range), and keeps it if the moved word is a node number;
  otherwise it puts a fixed pattern there. It then adds, into a zero array, the kept row of every edge to the row
  named by the edge's signed destination word, dropping an edge whose destination is no node. When every source
  word is a node number no word is moved and every row is kept.
-/
import proofs.«408347_j4329327034972_2_alg».proof.Proof.Gen.KernelIdeal.Launch
import proofs.«408347_j4329327034972_2_alg».proof.Proof.KView
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibRowsScatter
import proofs.«408347_j4329327034972_2_alg».proof.Proof.LibGatherRows
import proofs.«408347_j4329327034972_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.Lib.Affine
import Idealize.ShloMosaic.PureOps.Reduce
import Idealize.ShloMosaic.PureOps.Ideal.Laws

set_option maxRecDepth 16384

noncomputable section

open scoped BigOperators

namespace Cert.KernelIdeal.KTake1

open Cert.KernelIdeal Cert.KernelIdeal.Gen Cert.KernelIdeal.KView Cert.Gcn
open Idealize.ShloMosaic Idealize.ShloMosaic.TcCoe Idealize.ShloMosaic.ValueIdx Idealize.SL.Sem

-- every core's buffer contents before the stretch
variable (Wf : Dev nD → Valuation τ sig (Elt Ideal))

/-- Every core's buffer contents after the two stretches. -/
abbrev aft : Dev nD → Valuation τ sig (Elt Ideal) := fun c => StableHlo.after hostOps1_1 (StableHlo.after hostOps1 (Wf c))

/-! ## Layout steps and the range test read at an index -/

section Reads

variable {α : Type}

/-- A vector laid out as a column reads, at `(e, u)`, the vector at `e`. -/
theorem col_apply {n : ℕ} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x (ix2 e u) (ix1 e) fun a => ?_
  match a with
  | ⟨0, _⟩ =>
    show e.val = if n = 1 then 0 else e.val
    split
    · have := e.isLt; omega
    · rfl

/-- A vector repeated along the rows of a rectangle reads, at `(e, q)`, the vector at `e`. -/
theorem rows_apply {n m : ℕ} (h : (⟨1, ![n]⟩ : Shape).BroadcastsInDim ⟨2, ![n, m]⟩ ![0])
    (x : (⟨1, ![n]⟩ : Shape).Idx → α) (e : Fin n) (q : Fin m) :
    broadcastInDim ⟨2, ![n, m]⟩ ![0] h x (ix2 e q) = x (ix1 e) := by
  refine broadcastInDim_apply _ h x (ix2 e q) (ix1 e) fun a => ?_
  match a with
  | ⟨0, _⟩ =>
    show e.val = if n = 1 then 0 else e.val
    split
    · have := e.isLt; omega
    · rfl

/-- A conjunction of bits that are all set, started from a set bit, is set. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, IntOp.andi_eq_one.2 ⟨rfl, h a List.mem_cons_self⟩]
    exact foldl_andi_ones f l fun n hn => h n (List.mem_cons_of_mem _ hn)

/-- A reduction by conjunction, from a set bit, of an array whose bits are all set is set everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun i _ => hx i

end Reads

/-! ## Contents at a buffer's own type and at the value's type -/

/-- Contents carried to a buffer's own type and back are unchanged. -/
theorem ofBuf_toBuf {Val : EltTy → Type} {T : BufTy} (x : StableHlo.TRef sig T) (v : T.Contents Val) :
    x.ofBuf (x.toBuf v) = v := by
  obtain ⟨r, h, h1, h2⟩ := x
  subst h
  rfl

/-- At the source words' buffer the two types are one. -/
theorem ofBuf_v1 (p1 p2 p3) (u : (Proc.devRef (τ := τ) .tc main_v1).ty.Contents (Elt Ideal)) :
    (StableHlo.TRef.of main_v1 p1 p2 p3 : StableHlo.TRef sig ⟨S1600000, .i32⟩).ofBuf u = u := rfl

/-- At the scaled features' buffer the two types are one. -/
theorem ofBuf_v17 (p1 p2 p3) (u : (Proc.devRef (τ := τ) .tc main_v17).ty.Contents (Elt Ideal)) :
    (StableHlo.TRef.of main_v17 p1 p2 p3 : StableHlo.TRef sig ⟨S100000x128, .f32⟩).ofBuf u = u := rfl

/-- At the kept rows' buffer the two types are one. -/
theorem toBuf_v18 (p1 p2 p3) (u : S1600000x128.Idx → EReal) :
    (StableHlo.TRef.of main_v18 p1 p2 p3 : StableHlo.TRef sig ⟨S1600000x128, .f32⟩).toBuf (Val := Elt Ideal) u = u := rfl

/-! ## The first stretch as one term -/

/-- The source words, a negative one moved up by the number of nodes, as a column. -/
def movedCol (w : S1600000.Idx → BitVec 32) : S1600000x1.Idx → BitVec 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

/-- The range test `0 ≤ · ≤ 99999` of the moved words, per edge. -/
def inRange (w : S1600000.Idx → BitVec 32) : S1600000.Idx → BitVec 1 :=
  Host.reduce IntOp.andi
    (andi (cmpi .sge (movedCol w) (broadcastInDim S1600000x1 ![] bcast_S_S1600000x1 (constantI S_ 32 0#32)))
      (cmpi .sle (movedCol w)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `x` the moved words name, kept where the range test passes, a fixed pattern elsewhere. -/
def taken (w : S1600000.Idx → BitVec 32) (x : S100000x128.Idx → EReal) : S1600000x128.Idx → EReal :=
  select (broadcastInDim S1600000x128 ![0] bcast_S1600000_S1600000x128_0 (inRange w))
    (Host.gather gather_S100000x128_S1600000x1_S1600000x128_1_0_n_n_0_1_1128 x (movedCol w))
    (broadcastInDim S1600000x128 ![] bcast_S_S1600000x128 (constant (F := Ideal) S_ .f32 0x7FC00000#32))

/-- The column of moved words at edge `e`. -/
theorem movedCol_apply (w : S1600000.Idx → BitVec 32) (e : Fin 1600000) (u : Fin 1) :
    movedCol w (ix2 e u) = wrapWord (w (ix1 e)) :=
  (col_apply _ _ e u).trans rfl

/-- When every word is a node number the range test passes at every edge: no word is moved, and a node number is
    at least `0` and at most `99999`. -/
theorem inRange_of_nodes (w : S1600000.Idx → BitVec 32)
    (hw : ∀ e : Fin 1600000, 0 ≤ (w (ix1 e)).toInt ∧ (w (ix1 e)).toInt < 100000) (j : S1600000.Idx) :
    inRange w j = 1#1 := by
  unfold inRange
  refine reduce_andi_ones _ _ _ _ (fun i => ?_) rfl j
  obtain ⟨a, b, rfl⟩ : ∃ (a : Fin 1600000) (b : Fin 1), i = ix2 a b := ⟨i 0, i 1, eq_ix2 i⟩
  show IntOp.andi (IntOp.cmpi .sge (movedCol w (ix2 a b)) 0#32) (IntOp.cmpi .sle (movedCol w (ix2 a b)) 99999#32) = 1#1
  rw [movedCol_apply, wrapWord_of_nonneg _ (hw a).1]
  exact IntOp.andi_eq_one.2 ⟨sge_zero_of_nonneg _ (hw a).1, sle_last_of_lt _ (hw a).2⟩

/-- When every word is a node number the stretch's result at `(e, q)` is the row of `x` the word of `e` names. -/
theorem taken_apply (w : S1600000.Idx → BitVec 32) (x : S100000x128.Idx → EReal)
    (hw : ∀ e : Fin 1600000, 0 ≤ (w (ix1 e)).toInt ∧ (w (ix1 e)).toInt < 100000) (e : Fin 1600000) (q : Fin 128) :
    taken w x (ix2 e q) = x (ix2 (rowOf (wrapWord (w (ix1 e)))) q) := by
  unfold taken
  rw [select_apply, rows_apply, inRange_of_nodes w hw, select_one,
    Cert.LibGatherRows.gatherRows_apply (by omega : 0 < 100000)
      gather_S100000x128_S1600000x1_S1600000x128_1_0_n_n_0_1_1128 rfl rfl rfl rfl rfl,
    movedCol_apply]
  exact congrArg (fun r => x (ix2 r q)) (Fin.ext rfl)

/-! ## The two stretches -/

/-- The first stretch leaves, in its result buffer, the kept rows as one term over what it read. -/
theorem v18_eq (W : Valuation τ sig (Elt Ideal)) :
    (StableHlo.after hostOps1 W (Proc.devRef .tc main_v18) : S1600000x128.Idx → EReal)
      = taken (W (Proc.devRef .tc main_v1)) (W (Proc.devRef .tc main_v17)) := by
  after_results_simp
  simp only [ofBuf_toBuf, ofBuf_v1, ofBuf_v17, toBuf_v18]
  unfold taken inRange movedCol
  rfl

/-- The second stretch leaves, in the row sums' buffer, the scatter-add of the kept rows into a zero array at the
    column of destination words. -/
theorem v21_eq (W : Valuation τ sig (Elt Ideal)) :
    (StableHlo.after hostOps1_1 W (Proc.devRef .tc main_v21) : S100000x128.Idx → EReal)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_v3) : S1600000.Idx → BitVec 32))
          (W (Proc.devRef .tc main_v18) : S1600000x128.Idx → EReal) := by
  after_results

/-- The second stretch leaves the bias, as a row, in its buffer. -/
theorem v22_eq (W : Valuation τ sig (Elt Ideal)) (q : Fin 128) :
    (StableHlo.after hostOps1_1 W (Proc.devRef .tc main_v22) : S1x128.Idx → EReal) (ix2 (0 : Fin 1) q)
      = (W (Proc.devRef .tc main_arg3) : S128.Idx → EReal) (ix1 q) := by
  after_results
  exact shapeCast_a_1a_apply _ _ 0 q

/-- No operation of either stretch writes the buffer at hand: each operation writes one buffer, a different one. -/
local macro "not_written" : tactic => `(tactic| (
  refine List.forall_iff_forall_mem.mp ?_
  simp only [hostOps1, hostOps1_1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-- A buffer that neither stretch writes holds after them what it held before. -/
theorem keep_of (c : Dev nD) (b : Ref sig .tc)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes) :
    aft Wf c (Proc.devRef .tc b) = Wf c (Proc.devRef .tc b) :=
  (StableHlo.after_of_forall_not_mem _ _ h2).trans (StableHlo.after_of_forall_not_mem _ _ h1)

/-- The row sums: at `(v, q)`, the sum over the edges whose signed destination is `v` of the scaled features at the
    edge's source row and column `q`, when every source word is a node number. -/
theorem agg (c : Dev nD)
    (hin : ∀ e : Fin 1600000, 0 ≤ (rd_v1 (toVal Wf) c (ix1 e)).toInt ∧ (rd_v1 (toVal Wf) c (ix1 e)).toInt < 100000)
    (v : Fin 100000) (q : Fin 128) :
    rd_v21 (toVal (aft Wf)) c (ix2 v q)
      = 0 + ∑ e : Fin 1600000, (if (rd_v3 (toVal Wf) c (ix1 e)).toInt = (v.val : ℤ)
          then rd_v17 (toVal Wf) c (ix2 (rowOf (wrapWord (rd_v1 (toVal Wf) c (ix1 e)))) q) else 0) := by
  -- the destination words are not written by the first stretch
  have h3 : (StableHlo.after hostOps1 (Wf c) (Proc.devRef .tc main_v3) : S1600000.Idx → BitVec 32) = rd_v3 (toVal Wf) c :=
    StableHlo.after_of_forall_not_mem (b := Proc.devRef .tc main_v3) _ _ (by not_written)
  show (StableHlo.after hostOps1_1 (StableHlo.after hostOps1 (Wf c)) (Proc.devRef .tc main_v21) : S100000x128.Idx → EReal)
      (ix2 v q) = _
  rw [v21_eq, Cert.LibRowsScatter.rowsScatterAdd_apply (φ := .f32)
    scatter_S100000x128_S1600000x1_S1600000x128_1_0_0_1 rfl rfl rfl rfl]
  refine congrArg₂ (· + ·) ?_ (Finset.sum_congr rfl fun e _ => ?_)
  · -- the array summed into is zero
    exact Ideal.ofBits_zero_f32
  · -- edge by edge: the destination word is the one read before the stretches, the update is the kept row
    rw [col_apply, h3, v18_eq, taken_apply _ _ hin]

/-- The bias as a row. -/
theorem bias (c : Dev nD) (q : Fin 128) :
    rd_v22 (toVal (aft Wf)) c (ix2 (0 : Fin 1) q) = rd_arg3 (toVal Wf) c (ix1 q) := by
  show (StableHlo.after hostOps1_1 (StableHlo.after hostOps1 (Wf c)) (Proc.devRef .tc main_v22) : S1x128.Idx → EReal)
      (ix2 (0 : Fin 1) q) = _
  rw [v22_eq]
  exact congrFun (StableHlo.after_of_forall_not_mem (b := Proc.devRef .tc main_arg3) _ _ (by not_written)) (ix1 q)

/-- Buffers the stretches do not write. -/
theorem keep_v1 (c : Dev nD) : rd_v1 (toVal (aft Wf)) c = rd_v1 (toVal Wf) c :=
  keep_of Wf c main_v1 (by not_written) (by not_written)
theorem keep_v3 (c : Dev nD) : rd_v3 (toVal (aft Wf)) c = rd_v3 (toVal Wf) c :=
  keep_of Wf c main_v3 (by not_written) (by not_written)
theorem keep_v16 (c : Dev nD) : rd_v16 (toVal (aft Wf)) c = rd_v16 (toVal Wf) c :=
  keep_of Wf c main_v16 (by not_written) (by not_written)
theorem keep_v17 (c : Dev nD) : rd_v17 (toVal (aft Wf)) c = rd_v17 (toVal Wf) c :=
  keep_of Wf c main_v17 (by not_written) (by not_written)
theorem keep_arg4 (c : Dev nD) : rd_arg4 (toVal (aft Wf)) c = rd_arg4 (toVal Wf) c :=
  keep_of Wf c main_arg4 (by not_written) (by not_written)
theorem keep_arg5 (c : Dev nD) : rd_arg5 (toVal (aft Wf)) c = rd_arg5 (toVal Wf) c :=
  keep_of Wf c main_arg5 (by not_written) (by not_written)

end Cert.KernelIdeal.KTake1

end
-- ==== Proof.KTake2.lean ====
/-
  The host operations between two regions: the rows of the scaled features at the edges' sources, summed at the
  edges' destinations, and the bias laid out as a row.

  For each edge the stretch moves a negative source word up by the number of nodes, reads the row of the scaled
  features that the moved word names (clamped into the node range), and keeps it if the moved word is a node number;
  otherwise it puts a fixed pattern there. It then adds, into a zero array, the kept row of every edge to the row
  named by the edge's signed destination word, dropping an edge whose destination is no node. When every source
  word is a node number no word is moved and every row is kept.
-/
import proofs.«408347_j4329327034972_2_alg».proof.Proof.Gen.KernelIdeal.Launch
import proofs.«408347_j4329327034972_2_alg».proof.Proof.KView
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibRowsScatter
import proofs.«408347_j4329327034972_2_alg».proof.Proof.LibGatherRows
import proofs.«408347_j4329327034972_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KTake2

open Cert.KernelIdeal Cert.KernelIdeal.Gen Cert.KernelIdeal.KView Cert.Gcn
open Idealize.ShloMosaic Idealize.ShloMosaic.TcCoe Idealize.ShloMosaic.ValueIdx Idealize.SL.Sem

-- every core's buffer contents before the stretch
variable (Wf : Dev nD → Valuation τ sig (Elt Ideal))

/-- Every core's buffer contents after the two stretches. -/
abbrev aft : Dev nD → Valuation τ sig (Elt Ideal) := fun c => StableHlo.after hostOps2_1 (StableHlo.after hostOps2 (Wf c))

/-! ## The first stretch as three arrays over the source words and the feature rows -/

/-- The column of moved source words. -/
def col (w : S1600000.Idx → BitVec 32) : S1600000x1.Idx → BitVec 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

/-- The range test of every edge: its moved source word lies between 0 and 99999, both signed. -/
def mask (w : S1600000.Idx → BitVec 32) : S1600000.Idx → BitVec 1 :=
  Host.reduce IntOp.andi
    (andi (cmpi .sge (col w) (broadcastInDim S1600000x1 ![] bcast_S_S1600000x1 (constantI S_ 32 0#32)))
      (cmpi .sle (col w) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows taken at the edges' sources: the gathered row where the range test holds, a fixed pattern elsewhere. -/
def taken (x : S100000x64.Idx → EReal) (w : S1600000.Idx → BitVec 32) : S1600000x64.Idx → EReal :=
  select (broadcastInDim S1600000x64 ![0] bcast_S1600000_S1600000x64_0 (mask w))
    (Host.gather gather_S100000x64_S1600000x1_S1600000x64_1_0_n_n_0_1_164 x (col w))
    (broadcastInDim S1600000x64 ![] bcast_S_S1600000x64 (constant (F := Ideal) S_ .f32 0x7FC00000#32))

/-- A vector laid as a column reads, at row `e`, the vector at `e`. -/
theorem column_apply {α : Type} (w : S1600000.Idx → α) (e : Fin 1600000) (u : Fin 1) :
    broadcastInDim S1600000x1 ![0] bcast_S1600000_S1600000x1_0 w (ix2 e u) = w (ix1 e) :=
  broadcastInDim_apply _ _ _ (ix2 e u) (ix1 e) (fun a => by
    match a with
    | ⟨0, _⟩ =>
      show e.val = if (1600000 : ℕ) = 1 then 0 else e.val
      rw [if_neg (by decide)])

/-- The column of moved words reads, at row `e`, the moved word of edge `e`. -/
theorem col_apply (w : S1600000.Idx → BitVec 32) (e : Fin 1600000) (u : Fin 1) :
    col w (ix2 e u) = wrapWord (w (ix1 e)) := by
  unfold col
  rw [column_apply]
  rfl

/-- A left fold by `and` from 1 over 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hl => by
    refine foldl_andi_ones f l _ ?_ fun n hn => hl n (List.mem_cons_of_mem _ hn)
    show IntOp.andi init (f a) = 1#1
    rw [h, hl a List.mem_cons_self]
    rfl

/-- When every source word is a node number every edge passes the range test. -/
theorem mask_one (w : S1600000.Idx → BitVec 32)
    (hw : ∀ e : Fin 1600000, 0 ≤ (w (ix1 e)).toInt ∧ (w (ix1 e)).toInt < 100000) (j : S1600000.Idx) :
    mask w j = 1#1 := by
  unfold mask
  rw [Host.reduce_eq_foldl]
  refine foldl_andi_ones _ _ _ rfl fun i _ => ?_
  -- at row e the moved word is the word itself, a node number: both comparisons hold
  obtain ⟨e, u, rfl⟩ : ∃ (e : Fin 1600000) (u : Fin 1), i = ix2 e u := ⟨i 0, i 1, eq_ix2 i⟩
  show IntOp.andi (IntOp.cmpi .sge (col w (ix2 e u)) 0#32) (IntOp.cmpi .sle (col w (ix2 e u)) 99999#32) = 1#1
  rw [col_apply, wrapWord_of_nonneg _ (hw e).1, sge_zero_of_nonneg _ (hw e).1, sle_last_of_lt _ (hw e).2]
  rfl

/-- When every source word is a node number the taken row of edge `e` is the feature row its word names. -/
theorem taken_apply (x : S100000x64.Idx → EReal) (w : S1600000.Idx → BitVec 32)
    (hw : ∀ e : Fin 1600000, 0 ≤ (w (ix1 e)).toInt ∧ (w (ix1 e)).toInt < 100000) (e : Fin 1600000) (q : Fin 64) :
    taken x w (ix2 e q) = x (ix2 (rowOf (wrapWord (w (ix1 e)))) q) := by
  unfold taken
  rw [select_apply]
  show Scalar.select (mask w _) _ _ = _
  rw [mask_one w hw, select_one,
    Cert.LibGatherRows.gatherRows_apply (by decide) _ rfl rfl rfl rfl rfl, col_apply]
  rfl

/-! ## The two stretches' results as terms over the contents before them -/

/-- Contents moved to a buffer's own type and back are the contents. -/
theorem ofBuf_toBuf {Val : EltTy → Type} {T : BufTy} (x : StableHlo.TRef sig T) (v : T.Contents Val) :
    x.ofBuf (x.toBuf v) = v := by
  obtain ⟨r, h, h1, h2⟩ := x
  subst h
  rfl

section Terms

variable (V : Valuation τ sig (Elt Ideal))

/-- At a named buffer the move between the value's type and the buffer's own is the identity. -/
theorem ofBuf_v1 (p1 p2 p3) (u : (Proc.devRef (τ := τ) .tc main_v1).ty.Contents (Elt Ideal)) :
    (StableHlo.TRef.of main_v1 p1 p2 p3 : StableHlo.TRef sig ⟨S1600000, .i32⟩).ofBuf u = u := rfl
theorem ofBuf_v23 (p1 p2 p3) (u : (Proc.devRef (τ := τ) .tc main_v23).ty.Contents (Elt Ideal)) :
    (StableHlo.TRef.of main_v23 p1 p2 p3 : StableHlo.TRef sig ⟨S100000x64, .f32⟩).ofBuf u = u := rfl
theorem toBuf_v24 (p1 p2 p3) (u : S1600000x64.Idx → EReal) :
    (StableHlo.TRef.of main_v24 p1 p2 p3 : StableHlo.TRef sig ⟨S1600000x64, .f32⟩).toBuf (Val := Elt Ideal) u = u := rfl

/-- The first stretch leaves the taken rows in its result buffer. -/
theorem v24_term :
    (StableHlo.after hostOps2 V (Proc.devRef .tc main_v24) : S1600000x64.Idx → EReal)
      = taken (V (Proc.devRef .tc main_v23) : S100000x64.Idx → EReal) (V (Proc.devRef .tc main_v1) : S1600000.Idx → BitVec 32) := by
  after_results_simp
  simp only [ofBuf_toBuf, ofBuf_v1, ofBuf_v23, toBuf_v24]
  unfold taken mask col
  rfl

/-- The second stretch scatter-adds the first's result rows into a zero array at the column of destination words. -/
theorem v27_term :
    (StableHlo.after hostOps2_1 V (Proc.devRef .tc main_v27) : S100000x64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3) : S1600000.Idx → BitVec 32))
          (V (Proc.devRef .tc main_v24) : S1600000x64.Idx → EReal) := by
  after_results

/-- The second stretch lays the bias vector as a row. -/
theorem v28_term :
    (StableHlo.after hostOps2_1 V (Proc.devRef .tc main_v28) : S1x64.Idx → EReal)
      = shapeCast S1x64 (V (Proc.devRef .tc main_arg5) : S64.Idx → EReal) shapeCasts_S64_S1x64 := by
  after_results
  rfl

end Terms

/-! ## Buffers a stretch does not write -/

/-- No operation of a stretch writes the buffer: each operation's one result buffer is another. -/
local macro "not_written" : tactic =>
  `(tactic| exact List.forall_iff_forall_mem.mp (by
      simp only [hostOps2, hostOps2_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))

/-- A buffer neither stretch writes keeps its contents. -/
theorem keep_ref (c : Dev nD) (r : Ref sig .tc)
    (h1 : ∀ op ∈ (hostOps2 : List (HloOp τ sig (Elt Ideal))), Proc.devRef .tc r ∉ op.writes)
    (h2 : ∀ op ∈ (hostOps2_1 : List (HloOp τ sig (Elt Ideal))), Proc.devRef .tc r ∉ op.writes) :
    aft Wf c (Proc.devRef .tc r) = Wf c (Proc.devRef .tc r) :=
  (StableHlo.after_of_forall_not_mem (b := Proc.devRef .tc r) _ _ h2).trans
    (StableHlo.after_of_forall_not_mem (b := Proc.devRef .tc r) _ _ h1)

/-- The row sums: at `(v, q)`, the sum over the edges whose signed destination is `v` of the scaled features at the
    edge's source row and column `q`, when every source word is a node number. -/
theorem agg (c : Dev nD)
    (hin : ∀ e : Fin 1600000, 0 ≤ (rd_v1 (toVal Wf) c (ix1 e)).toInt ∧ (rd_v1 (toVal Wf) c (ix1 e)).toInt < 100000)
    (v : Fin 100000) (q : Fin 64) :
    rd_v27 (toVal (aft Wf)) c (ix2 v q)
      = 0 + ∑ e : Fin 1600000, (if (rd_v3 (toVal Wf) c (ix1 e)).toInt = (v.val : ℤ)
          then rd_v23 (toVal Wf) c (ix2 (rowOf (wrapWord (rd_v1 (toVal Wf) c (ix1 e)))) q) else 0) := by
  -- the destination words are still there after the first stretch, which leaves the taken rows
  have h3 : (StableHlo.after hostOps2 (Wf c) (Proc.devRef .tc main_v3) : S1600000.Idx → BitVec 32)
      = Wf c (Proc.devRef .tc main_v3) :=
    StableHlo.after_of_forall_not_mem (b := Proc.devRef .tc main_v3) _ _ (by not_written)
  -- the zero array reads zero
  have h0 : broadcastInDim S100000x64 ![] bcast_S_S100000x64 (constant (F := Ideal) S_ .f32 0x00000000#32) (ix2 v q) = 0 :=
    Ideal.ofBits_zero_f32
  show (StableHlo.after hostOps2_1 (StableHlo.after hostOps2 (Wf c)) (Proc.devRef .tc main_v27) : S100000x64.Idx → EReal) (ix2 v q) = _
  rw [v27_term, Cert.LibRowsScatter.rowsScatterAdd_apply (φ := .f32) _ rfl rfl rfl rfl, h0, h3, v24_term]
  refine congrArg (0 + ·) (Finset.sum_congr rfl fun e _ => ?_)
  rw [column_apply, taken_apply _ _ hin]

/-- The bias as a row. -/
theorem bias (c : Dev nD) (q : Fin 64) :
    rd_v28 (toVal (aft Wf)) c (ix2 (0 : Fin 1) q) = rd_arg5 (toVal Wf) c (ix1 q) := by
  have h5 : (StableHlo.after hostOps2 (Wf c) (Proc.devRef .tc main_arg5) : S64.Idx → EReal)
      = Wf c (Proc.devRef .tc main_arg5) :=
    StableHlo.after_of_forall_not_mem (b := Proc.devRef .tc main_arg5) _ _ (by not_written)
  show (StableHlo.after hostOps2_1 (StableHlo.after hostOps2 (Wf c)) (Proc.devRef .tc main_v28) : S1x64.Idx → EReal) (ix2 (0 : Fin 1) q) = _
  rw [v28_term, h5, shapeCast_a_1a_apply]

/-- Buffers the stretches do not write. -/
theorem keep_v1 (c : Dev nD) : rd_v1 (toVal (aft Wf)) c = rd_v1 (toVal Wf) c :=
  keep_ref Wf c main_v1 (by not_written) (by not_written)
theorem keep_v3 (c : Dev nD) : rd_v3 (toVal (aft Wf)) c = rd_v3 (toVal Wf) c :=
  keep_ref Wf c main_v3 (by not_written) (by not_written)
theorem keep_v16 (c : Dev nD) : rd_v16 (toVal (aft Wf)) c = rd_v16 (toVal Wf) c :=
  keep_ref Wf c main_v16 (by not_written) (by not_written)
theorem keep_v23 (c : Dev nD) : rd_v23 (toVal (aft Wf)) c = rd_v23 (toVal Wf) c :=
  keep_ref Wf c main_v23 (by not_written) (by not_written)

end Cert.KernelIdeal.KTake2

end
-- ==== Proof.KReg0.lean ====
/-
  The first region, read as one function of whole arrays.

  The grid has 25 points; point `t` takes rows `4000 t … 4000 t + 3999` of the features `x` and of the column `dinv`,
  and the whole weight matrix `w`, and writes back the same rows of the result: the row of `x · w` scaled by the
  row's `dinv`. The blocks tile the result, so after the last point entry `(v, q)` of the result array is
  `(Σ_k x[v, k] · w[k, q]) · dinv[v, 0]`.
-/
import proofs.«408347_j4329327034972_2_alg».proof.Proof.Gen.KernelIdeal.Frame
import proofs.«408347_j4329327034972_2_alg».proof.Proof.KView
import proofs.«408347_j4329327034972_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg0

open Cert.KernelIdeal Cert.KernelIdeal.Gen Cert.KernelIdeal.KView
open Idealize.ShloMosaic Idealize.ShloMosaic.TcCoe Idealize.ShloMosaic.ValueIdx Idealize.SL.Sem
open Idealize.ShloMosaic.Pipeline (Dat Cfg Window)

/-! ## One block: the product with the weights, each row scaled -/

/-- The left factor's row is the output's row. -/
theorem lhs_rowblock_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- The left factor's column is the summation index. -/
theorem lhs_rowblock_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
/-- The right factor's row is the summation index. -/
theorem rhs_rowblock_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
/-- The right factor's column is the output's column. -/
theorem rhs_rowblock_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry `(p, q)` of a block's product with the weights: the sum over the 256 features. -/
theorem blockdot_apply (a : FVec Ideal S4000x256 .bf16) (b : FVec Ideal S256x128 .bf16) (p : Fin 4000) (q : Fin 128) :
    matmul (F := Ideal) dot_S4000x256_S256x128_S4000x128_1_0_0_1_n_n none a b (constant (F := Ideal) S4000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs_rowblock_0 _ _
    | ⟨1, _⟩ => exact (lhs_rowblock_1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs_rowblock_0 _ _).trans hk
    | ⟨1, _⟩ => exact rhs_rowblock_1 _ _)
  rw [el, er]

/-- Entry `(p, q)` of what one grid point computes from its blocks. -/
theorem pay_apply (x0 : Vec Ideal S4000x256 .f32) (x1 : Vec Ideal S256x128 .f32) (x2 : Vec Ideal S4000x1 .f32) (p : Fin 4000) (q : Fin 128) :
    k0_pay1 (F := Ideal) x0 x1 x2 (ix2 p q)
      = (∑ k : Fin 256, x0 (ix2 p k) * x1 (ix2 k q)) * x2 (ix2 p (0 : Fin 1)) := by
  unfold k0_pay1
  show matmul (F := Ideal) dot_S4000x256_S256x128_S4000x128_1_0_0_1_n_n none _ _ _ (ix2 p q) * broadcastTo S4000x128 _ broadcasts_S4000x1_S4000x128 (ix2 p q) = _
  rw [blockdot_apply, shapeCast_self, Cert.Lib.Keepdims.broadcastTo_a1_ab_apply]
  rfl

/-! ## The whole result as one function of the arrays -/

/-- An index's row, at the literal extent. -/
abbrev rowOf (i : S100000x128.Idx) : Fin 100000 := ⟨(i 0).val, (i 0).isLt⟩
/-- An index's column, at the literal extent. -/
abbrev colOf (i : S100000x128.Idx) : Fin 128 := ⟨(i 1).val, (i 1).isLt⟩

/-- Entry `(v, q)` of the result: row `v` of `x · w`, scaled by `dinv v`. -/
def scaledProduct (A0 : S100000x256.Idx → EReal) (A1 : S256x128.Idx → EReal) (A2 : S100000x1.Idx → EReal) :
    S100000x128.Idx → EReal := fun i =>
  (∑ k : Fin 256, A0 (ix2 (rowOf i) k) * A1 (ix2 k (colOf i))) * A2 (ix2 (rowOf i) (0 : Fin 1))

/-- What a grid point computes at `(p, q)` of its block, when its blocks are rows `v` of the features and of the
    scaling column and the whole weight matrix. -/
theorem block_entry (A0 : S100000x256.Idx → EReal) (A1 : S256x128.Idx → EReal) (A2 : S100000x1.Idx → EReal)
    (x0 : Vec Ideal S4000x256 .f32) (x1 : Vec Ideal S256x128 .f32) (x2 : Vec Ideal S4000x1 .f32)
    (p : Fin 4000) (q : Fin 128) (v : Fin 100000) (q' : Fin 128)
    (h0 : ∀ k : Fin 256, x0 (ix2 p k) = A0 (ix2 v k))
    (h1 : ∀ k : Fin 256, x1 (ix2 k q) = A1 (ix2 k q'))
    (h2 : x2 (ix2 p (0 : Fin 1)) = A2 (ix2 v (0 : Fin 1))) :
    k0_pay1 (F := Ideal) x0 x1 x2 (ix2 p q)
      = (∑ k : Fin 256, A0 (ix2 v k) * A1 (ix2 k q')) * A2 (ix2 v (0 : Fin 1)) := by
  rw [pay_apply, h2]
  exact congrArg (· * A2 (ix2 v (0 : Fin 1))) (Finset.sum_congr rfl fun k _ => by rw [h0 k, h1 k])

/-- The offsets of a whole-block access, all zero. -/
theorem zeroOffsets : (![0, 0] : Fin 2 → Nat) = fun _ => 0 := funext fun a => by fin_cases a <;> rfl

/-- The block indices over the grid: the row blocks move with the point, the weights stay. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- Every row block is some point's. -/
theorem blockOnto : ∀ (b : Fin 25), ∃ t : Fin cfg0.N, win0_3.index t = ![b.val, 0] :=
  (by decide +kernel : ∀ (b : Fin 25), ∃ t : Fin grid0.N, win0_3.index t = ![b.val, 0])

-- the buffer contents when the region is entered
variable (V : Val)

/-- What point `t` writes back is block `t` of the scaled product of the arrays as the region finds them. -/
theorem flushed_eq (c : Dev nD) (t : Fin cfg0.N) :
    (dat0 (F := Ideal) V c).flushed 3 t
      = ((cfg0.win 3).blk t).view.read (Elt Ideal) (scaledProduct (rd_arg0 V c) (rd_arg2 V c) (rd_v16 V c)) := by
  show (cfg0.win 3).cut (grid0.coords t) ((dat0 (F := Ideal) V c).after 3 t) = _
  rw [after0_3]
  unfold out0_3
  rw [View.canon_unit_zero zeroOffsets]
  simp only [View.ld_unit_zero (S := S4000x256) zeroOffsets, View.ld_unit_zero (S := S256x128) zeroOffsets, View.ld_unit_zero (S := S4000x1) zeroOffsets]
  obtain ⟨e00, e01, e10, e11, e20, e21, e30, e31, ht⟩ := blockIndices t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = scaledProduct (rd_arg0 V c) (rd_arg2 V c) (rd_v16 V c) (((cfg0.win 3).blk t).view.emb (ix2 p q))
  unfold scaledProduct
  refine block_entry (rd_arg0 V c) (rd_arg2 V c) (rd_v16 V c) _ _ _ p q _ _ (fun k => ?_) (fun k => ?_) ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 4000 + 1 * p.val = win0_3.index t (0 : Fin 2) * 4000 + 1 * p.val; rw [e00, e30]
    | ⟨1, _⟩ => show win0_0.index t (1 : Fin 2) * 256 + 1 * k.val = k.val; rw [e01]; omega
  · show V c main_arg2 (((cfg0.win 1).blk t).view.emb (ix2 k q)) = V c main_arg2 _
    refine congrArg (V c main_arg2) (funext fun a => Fin.ext ?_)
    match a with
    | ⟨0, _⟩ => show win0_1.index t (0 : Fin 2) * 256 + 1 * k.val = k.val; rw [e10]; omega
    | ⟨1, _⟩ => show win0_1.index t (1 : Fin 2) * 128 + 1 * q.val = win0_3.index t (1 : Fin 2) * 128 + 1 * q.val; rw [e11, e31]
  · show V c main_v16 (((cfg0.win 2).blk t).view.emb (ix2 p (0 : Fin 1))) = V c main_v16 _
    refine congrArg (V c main_v16) (funext fun a => Fin.ext ?_)
    match a with
    | ⟨0, _⟩ => show win0_2.index t (0 : Fin 2) * 4000 + 1 * p.val = win0_3.index t (0 : Fin 2) * 4000 + 1 * p.val; rw [e20, e30]
    | ⟨1, _⟩ => show win0_2.index t (1 : Fin 2) * 1 + 1 * 0 = 0; rw [e21]

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v17).slice (win0_3.rect t)).set ↔ _
  rw [View.set_slice_whole, Rect.mem_set_unit]
  exact Iff.rfl

/-- The row blocks tile the result: row `r` is in the block of point `r / 4000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := blockOnto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The result array after the region. -/
abbrev res (c : Dev nD) : S100000x128.Idx → EReal := (dat0 (F := Ideal) V c).arrAt 3 cfg0.N

/-- The result array after the region is the scaled product of the arrays as the region finds them. -/
theorem res_eq (c : Dev nD) : res V c = scaledProduct (rd_arg0 V c) (rd_arg2 V c) (rd_v16 V c) :=
  (dat0 (F := Ideal) V c).arrAt_eq_of_cover 3 (scaledProduct (rd_arg0 V c) (rd_arg2 V c) (rd_v16 V c))
    (fun t _ => flushed_eq V c t) covered

/-- After the region, the result array at `(v, q)`. -/
theorem final (c : Dev nD) (v : Fin 100000) (q : Fin 128) :
    res V c (ix2 v q)
      = (∑ k : Fin 256, rd_arg0 V c (ix2 v k) * rd_arg2 V c (ix2 k q)) * rd_v16 V c (ix2 v (0 : Fin 1)) := by
  rw [res_eq]
  rfl

end Cert.KernelIdeal.KReg0

end
-- ==== Proof.KReg1.lean ====
/-
  The second region, read as one function of whole arrays.

  The grid has 25 points; point `t` takes rows `4000 t … 4000 t + 3999` of the row sums `agg`, of the scaled
  features `hs` and of the column `dinv`, the whole bias row `b` and the whole weight matrix `w`, and writes back the
  same rows of the result. Row `v` of the activation is the positive part of `dinv[v] · (agg[v, ·] + hs[v, ·]) + b`;
  the result's row is the activation's row times `w`, scaled by `dinv[v]`. The blocks tile the result.
-/
import proofs.«408347_j4329327034972_2_alg».proof.Proof.Gen.KernelIdeal.Frame
import proofs.«408347_j4329327034972_2_alg».proof.Proof.KView
import proofs.«408347_j4329327034972_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg1

open Cert.KernelIdeal Cert.KernelIdeal.Gen Cert.KernelIdeal.KView
open Idealize.ShloMosaic Idealize.ShloMosaic.TcCoe Idealize.ShloMosaic.ValueIdx Idealize.SL.Sem
open Idealize.ShloMosaic.Pipeline (Dat Cfg Window)

/-! ## One block's product `[4000, 128] × [128, 64]` at an entry -/

/-- The left operand's row coordinate is the output's row. -/
theorem lhs_axis0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand's column coordinate is the contraction index. -/
theorem lhs_axis1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand's row coordinate is the contraction index. -/
theorem rhs_axis0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand's column coordinate is the output's column. -/
theorem rhs_axis1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The product accumulated into zero, at `(p, q)`: the sum over `k` of `x[p, k] · w[k, q]`. -/
theorem matmul_at (x : FVec Ideal S4000x128 .bf16) (w : FVec Ideal S128x64 .bf16) (p : Fin 4000) (q : Fin 64) :
    matmul (F := Ideal) dot_S4000x128_S128x64_S4000x64_1_0_0_1_n_n none x w (constant S4000x64 .f32 0x00000000#32) (ix2 p q)
      = ∑ k : Fin 128, x (ix2 p k) * w (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## What one grid point computes, at an entry of its block -/

/-- Entry `(p, q)` of the block a grid point computes from its blocks `d` (the column, read twice), `a`, `h`, the
    row `b` and the matrix `w`: the positive part of `d[p] · (a[p, k] + h[p, k]) + b[k]`, summed against `w[k, q]`
    over `k`, times `d[p]`. Narrowing to 16 bits changes no extended real. -/
theorem payload_at (d : Vec Ideal S4000x1 .f32) (a h : Vec Ideal S4000x128 .f32) (b : Vec Ideal S1x128 .f32)
    (w : Vec Ideal S128x64 .f32) (d' : Vec Ideal S4000x1 .f32) (p : Fin 4000) (q : Fin 64) :
    k1_pay1 (F := Ideal) d a h b w d' (ix2 p q)
      = (∑ k : Fin 128, max (d (ix2 p (0 : Fin 1)) * (a (ix2 p k) + h (ix2 p k)) + b (ix2 (0 : Fin 1) k)) 0 * w (ix2 k q))
          * d' (ix2 p (0 : Fin 1)) := by
  unfold k1_pay1
  simp only [shapeCast_self]
  rw [mulf_apply, matmul_at, Cert.Lib.Keepdims.broadcastTo_a1_ab_apply]
  congr 1
  refine Finset.sum_congr rfl fun k _ => ?_
  rw [truncf_apply, truncf_apply, maximumf_apply, addf_apply, mulf_apply, addf_apply,
    Cert.Lib.Keepdims.broadcastTo_a1_ab_apply, broadcastTo_1b_ab_apply, broadcast_apply]
  show max _ (Ideal.ofBits .f32 0x00000000#32) * _ = _
  rw [Ideal.ofBits_zero_f32]

-- the buffer contents when the region is entered
variable (V : Val)

/-! ## The result as one function of the whole arrays -/

/-- The result at row `v`, column `q`. -/
def resultAt (c : Dev nD) (v : Fin 100000) (q : Fin 64) : EReal :=
  (∑ k : Fin 128,
      max (rd_v16 V c (ix2 v (0 : Fin 1)) * (rd_v21 V c (ix2 v k) + rd_v17 V c (ix2 v k))
          + rd_v22 V c (ix2 (0 : Fin 1) k)) 0
        * rd_arg4 V c (ix2 k q))
    * rd_v16 V c (ix2 v (0 : Fin 1))

/-- The whole result array. -/
abbrev resultArr (c : Dev nD) : S100000x64.Idx → EReal := fun i => resultAt V c (i 0) (i 1)

/-! ## The blocks of a grid point -/

theorem zero_offsets : (![0, 0] : Fin 2 → Nat) = fun _ => 0 := funext fun a => by fin_cases a <;> rfl

/-- At point `t` the three row-blocked inputs and the output are at block `(t, 0)`; the bias row and the weight
    matrix are at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of point `t` is row `4000 t + p` of the array. -/
def rowOf (t : Fin cfg1.N) (p : Fin 4000) : Fin 100000 :=
  ⟨t.val * 4000 + p.val, by have h : t.val < 25 := lt_of_lt_of_eq t.isLt N_1; have := p.isLt; omega⟩

/-- The block of the row sums at point `t` is rows `4000 t …` of `agg`. -/
theorem agg_block (c : Dev nD) (t : Fin cfg1.N) (p : Fin 4000) (k : Fin 128) :
    (iblk1 (F := Ideal) V c 0 t : Vec Ideal S4000x128 .f32) (ix2 p k) = rd_v21 V c (ix2 (rowOf t p) k) := by
  obtain ⟨e0, e1, -⟩ := block_indices t
  show rd_v21 V c (((cfg1.win 0).blk t).view.emb (ix2 p k)) = rd_v21 V c (ix2 (rowOf t p) k)
  refine congrArg (rd_v21 V c) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- The block of the scaled features at point `t` is rows `4000 t …` of `hs`. -/
theorem hs_block (c : Dev nD) (t : Fin cfg1.N) (p : Fin 4000) (k : Fin 128) :
    (iblk1 (F := Ideal) V c 1 t : Vec Ideal S4000x128 .f32) (ix2 p k) = rd_v17 V c (ix2 (rowOf t p) k) := by
  obtain ⟨-, -, e0, e1, -⟩ := block_indices t
  show rd_v17 V c (((cfg1.win 1).blk t).view.emb (ix2 p k)) = rd_v17 V c (ix2 (rowOf t p) k)
  refine congrArg (rd_v17 V c) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

/-- The block of the column at point `t` is rows `4000 t …` of `dinv`. -/
theorem dinv_block (c : Dev nD) (t : Fin cfg1.N) (p : Fin 4000) (u : Fin 1) :
    (iblk1 (F := Ideal) V c 2 t : Vec Ideal S4000x1 .f32) (ix2 p u) = rd_v16 V c (ix2 (rowOf t p) u) := by
  obtain ⟨-, -, -, -, e0, e1, -⟩ := block_indices t
  show rd_v16 V c (((cfg1.win 2).blk t).view.emb (ix2 p u)) = rd_v16 V c (ix2 (rowOf t p) u)
  refine congrArg (rd_v16 V c) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 1 + 1 * u.val = u.val; rw [e1]; omega

/-- The bias row's block is the whole row at every point. -/
theorem bias_block (c : Dev nD) (t : Fin cfg1.N) (u : Fin 1) (k : Fin 128) :
    (iblk1 (F := Ideal) V c 3 t : Vec Ideal S1x128 .f32) (ix2 u k) = rd_v22 V c (ix2 u k) := by
  obtain ⟨-, -, -, -, -, -, e0, e1, -⟩ := block_indices t
  show rd_v22 V c (((cfg1.win 3).blk t).view.emb (ix2 u k)) = rd_v22 V c (ix2 u k)
  refine congrArg (rd_v22 V c) (funext fun a => Fin.ext ?_)
  match a with
  | ⟨0, _⟩ => show win1_3.index t (0 : Fin 2) * 1 + 1 * u.val = u.val; rw [e0]; omega
  | ⟨1, _⟩ => show win1_3.index t (1 : Fin 2) * 128 + 1 * k.val = k.val; rw [e1]; omega

/-- The weight matrix's block is the whole matrix at every point. -/
theorem w_block (c : Dev nD) (t : Fin cfg1.N) (k : Fin 128) (q : Fin 64) :
    (iblk1 (F := Ideal) V c 4 t : Vec Ideal S128x64 .f32) (ix2 k q) = rd_arg4 V c (ix2 k q) := by
  obtain ⟨-, -, -, -, -, -, -, -, e0, e1, -⟩ := block_indices t
  show rd_arg4 V c (((cfg1.win 4).blk t).view.emb (ix2 k q)) = rd_arg4 V c (ix2 k q)
  refine congrArg (rd_arg4 V c) (funext fun a => Fin.ext ?_)
  match a with
  | ⟨0, _⟩ => show win1_4.index t (0 : Fin 2) * 128 + 1 * k.val = k.val; rw [e0]; omega
  | ⟨1, _⟩ => show win1_4.index t (1 : Fin 2) * 64 + 1 * q.val = q.val; rw [e1]; omega

/-- Entry `(p, q)` of the result's block at point `t` sits at `(4000 t + p, q)` of the result. -/
theorem result_block_index (t : Fin cfg1.N) (p : Fin 4000) (q : Fin 64) :
    (((cfg1.win 5).blk t).view.emb (ix2 p q) : S100000x64.Idx) = ix2 (rowOf t p) q := by
  obtain ⟨-, -, -, -, -, -, -, -, -, -, e0, e1⟩ := block_indices t
  refine funext fun a => Fin.ext ?_
  match a with
  | ⟨0, _⟩ => show win1_5.index t (0 : Fin 2) * 4000 + 1 * p.val = t.val * 4000 + p.val; rw [e0]; omega
  | ⟨1, _⟩ => show win1_5.index t (1 : Fin 2) * 64 + 1 * q.val = q.val; rw [e1]; omega

/-! ## From the blocks to the array -/

/-- What point `t` writes back is block `t` of the whole result array. -/
theorem written_block (c : Dev nD) (t : Fin cfg1.N) :
    (dat1 (F := Ideal) V c).flushed 5 t = ((cfg1.win 5).blk t).view.read (Elt Ideal) (resultArr V c) := by
  show (cfg1.win 5).cut (grid1.coords t) ((dat1 (F := Ideal) V c).after 5 t) = _
  rw [after1_5]
  unfold out1_5
  rw [View.canon_unit_zero zero_offsets]
  simp only [View.ld_unit_zero (S := S4000x1) zero_offsets, View.ld_unit_zero (S := S4000x128) zero_offsets,
    View.ld_unit_zero (S := S1x128) zero_offsets, View.ld_unit_zero (S := S128x64) zero_offsets]
  funext j
  obtain ⟨p, q, rfl⟩ : ∃ (p : Fin 4000) (q : Fin 64), j = ix2 p q := ⟨j 0, j 1, eq_ix2 j⟩
  show k1_pay1 (F := Ideal) (iblk1 V c 2 t) (iblk1 V c 0 t) (iblk1 V c 1 t) (iblk1 V c 3 t) (iblk1 V c 4 t) (iblk1 V c 2 t) (ix2 p q)
      = resultArr V c (((cfg1.win 5).blk t).view.emb (ix2 p q))
  refine (payload_at _ _ _ _ _ _ p q).trans ?_
  refine Eq.trans ?_ (congrArg (resultArr V c) (result_block_index t p q).symm)
  show _ = resultAt V c (rowOf t p) q
  unfold resultAt
  rw [dinv_block]
  congr 1
  refine Finset.sum_congr rfl fun k _ => ?_
  rw [agg_block, hs_block, bias_block, w_block]

/-- An index of the result is in point `t`'s block iff each coordinate is in the block's range on its axis. -/
theorem mem_block (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v23).slice (win1_5.rect t)).set ↔ _
  rw [View.set_slice_whole, Rect.mem_set_unit]
  exact Iff.rfl

/-- The blocks tile the result: row `r` is in the block of point `r / 4000`. -/
theorem blocks_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ : ∃ t : Fin cfg1.N, t.val = (i 0).val / 4000 :=
    ⟨⟨(i 0).val / 4000, lt_of_lt_of_eq (by omega : (i 0).val / 4000 < 25) N_1.symm⟩, rfl⟩
  obtain ⟨-, -, -, -, -, -, -, -, -, -, e0, e1⟩ := block_indices t
  refine ⟨t, flush1_5 t, ?_⟩
  rw [mem_block]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 64 ≤ (i 1).val ∧ (i 1).val < win1_5.index t (1 : Fin 2) * 64 + 64; rw [e1]; omega

/-- The result array after the region. -/
abbrev res (c : Dev nD) : S100000x64.Idx → EReal := (dat1 (F := Ideal) V c).arrAt 5 cfg1.N

/-- After the last point the result array is the whole-array function. -/
theorem res_eq (c : Dev nD) : res V c = resultArr V c :=
  (dat1 (F := Ideal) V c).arrAt_eq_of_cover 5 (resultArr V c) (fun t _ => written_block V c t) blocks_cover

/-- After the region, the result array at `(v, q)`. -/
theorem final (c : Dev nD) (v : Fin 100000) (q : Fin 64) :
    res V c (ix2 v q)
      = (∑ k : Fin 128,
            max (rd_v16 V c (ix2 v (0 : Fin 1)) * (rd_v21 V c (ix2 v k) + rd_v17 V c (ix2 v k))
                + rd_v22 V c (ix2 (0 : Fin 1) k)) 0
              * rd_arg4 V c (ix2 k q))
          * rd_v16 V c (ix2 v (0 : Fin 1)) := by
  rw [res_eq]
  rfl

end Cert.KernelIdeal.KReg1

end
-- ==== Proof.KReg2.lean ====
/-
  The third region, read as one function of whole arrays.

  The grid has 25 points; point `t` takes rows `4000 t … 4000 t + 3999` of the row sums `agg`, of the scaled
  features `hs` and of the column `dinv`, and the whole bias row `b`, and writes back the same rows of the result:
  `dinv[v] · (agg[v, q] + hs[v, q]) + b[q]`. The blocks tile the result.
-/
import proofs.«408347_j4329327034972_2_alg».proof.Proof.Gen.KernelIdeal.Frame
import proofs.«408347_j4329327034972_2_alg».proof.Proof.KView
import proofs.«408347_j4329327034972_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KReg2

open Cert.KernelIdeal Cert.KernelIdeal.Gen Cert.KernelIdeal.KView
open Idealize.ShloMosaic Idealize.ShloMosaic.TcCoe Idealize.ShloMosaic.ValueIdx Idealize.SL.Sem
open Idealize.ShloMosaic.Pipeline (Dat Cfg Window)

/-- The zero offsets of a whole-block access. -/
theorem zeros2 : (![0, 0] : Fin 2 → Nat) = fun _ => 0 := funext fun a => by fin_cases a <;> rfl

/-- The stored block at `(p, q)`: the column entry of row `p` times the sum of the two feature entries, plus the
    bias entry of lane `q`. -/
theorem pay_apply (x2 : Vec Ideal S4000x1 .f32) (x0 x1 : Vec Ideal S4000x64 .f32) (x3 : Vec Ideal S1x64 .f32)
    (p : Fin 4000) (q : Fin 64) :
    k2_pay1 (F := Ideal) x2 x0 x1 x3 (ix2 p q)
      = x2 (ix2 p (0 : Fin 1)) * (x0 (ix2 p q) + x1 (ix2 p q)) + x3 (ix2 (0 : Fin 1) q) := by
  unfold k2_pay1
  simp only [shapeCast_self]
  show broadcastTo S4000x64 x2 _ (ix2 p q) * (x0 (ix2 p q) + x1 (ix2 p q)) + broadcastTo S4000x64 x3 _ (ix2 p q) = _
  rw [Cert.Lib.Keepdims.broadcastTo_a1_ab_apply, broadcastTo_1b_ab_apply]

/-- The same entry when the four loaded blocks are pieces of four whole arrays: the stored entry is the whole-array
    expression at the array index `i` the block index `(p, q)` stands for. -/
theorem block_apply (x2 : Vec Ideal S4000x1 .f32) (x0 x1 : Vec Ideal S4000x64 .f32) (x3 : Vec Ideal S1x64 .f32)
    (a16 : S100000x1.Idx → EReal) (a27 a23 : S100000x64.Idx → EReal) (a28 : S1x64.Idx → EReal)
    (p : Fin 4000) (q : Fin 64) (i : S100000x64.Idx)
    (h2 : x2 (ix2 p (0 : Fin 1)) = a16 (ix2 (i 0) (0 : Fin 1)))
    (h0 : x0 (ix2 p q) = a27 i) (h1 : x1 (ix2 p q) = a23 i)
    (h3 : x3 (ix2 (0 : Fin 1) q) = a28 (ix2 (0 : Fin 1) (i 1))) :
    k2_pay1 (F := Ideal) x2 x0 x1 x3 (ix2 p q)
      = a16 (ix2 (i 0) (0 : Fin 1)) * (a27 i + a23 i) + a28 (ix2 (0 : Fin 1) (i 1)) := by
  rw [pay_apply, h2, h0, h1, h3]

-- the buffer contents when the region is entered
variable (V : Val)

/-- The whole result as one function of the four arrays: at `(v, q)`, `dinv[v] · (agg[v, q] + hs[v, q]) + b[q]`. -/
abbrev whole (c : Dev nD) : S100000x64.Idx → EReal := fun i =>
  rd_v16 V c (ix2 (i 0) (0 : Fin 1)) * (rd_v27 V c i + rd_v23 V c i) + rd_v28 V c (ix2 (0 : Fin 1) (i 1))

/-- Where the blocks sit: at point `t` the three row-blocked inputs and the output are at block row `t`, block
    column `0`; the bias row is at block `(0, 0)` throughout. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `whole`: rows `4000 t … 4000 t + 3999`. -/
theorem flushed_eq (c : Dev nD) (t : Fin cfg2.N) :
    (dat2 (F := Ideal) V c).flushed 4 t = ((cfg2.win 4).blk t).view.read (Elt Ideal) (whole V c) := by
  show (cfg2.win 4).cut (grid2.coords t) ((dat2 (F := Ideal) V c).after 4 t) = _
  rw [after2_4]
  unfold out2_4
  rw [View.canon_unit_zero zeros2]
  simp only [View.ld_unit_zero (S := S4000x64) zeros2, View.ld_unit_zero (S := S4000x1) zeros2,
    View.ld_unit_zero (S := S1x64) zeros2]
  obtain ⟨e00, e01, e10, e11, e20, e21, e30, e31, e40, e41⟩ := idx_facts t
  funext j
  obtain ⟨p, q, rfl⟩ : ∃ (p : Fin 4000) (q : Fin 64), j = ix2 p q := ⟨j 0, j 1, eq_ix2 j⟩
  show k2_pay1 (F := Ideal) (iblk2 V c 2 t) (iblk2 V c 0 t) (iblk2 V c 1 t) (iblk2 V c 3 t) (ix2 p q)
    = whole V c (((cfg2.win 4).blk t).view.emb (ix2 p q))
  refine block_apply _ _ _ _ (rd_v16 V c) (rd_v27 V c) (rd_v23 V c) (rd_v28 V c) p q _ ?_ ?_ ?_ ?_
  · -- the column entry: row `4000 t + p` of `dinv`
    show rd_v16 V c (((cfg2.win 2).blk t).view.emb (ix2 p (0 : Fin 1)))
      = rd_v16 V c (ix2 (((cfg2.win 4).blk t).view.emb (ix2 p q) 0) (0 : Fin 1))
    refine congrArg (rd_v16 V c) (funext fun a => Fin.ext ?_)
    match a with
    | ⟨0, _⟩ =>
      show win2_2.index t (0 : Fin 2) * 4000 + 1 * p.val = win2_4.index t (0 : Fin 2) * 4000 + 1 * p.val
      omega
    | ⟨1, _⟩ =>
      show win2_2.index t (1 : Fin 2) * 1 + 1 * 0 = 0
      omega
  · -- the row-sum entry
    show rd_v27 V c (((cfg2.win 0).blk t).view.emb (ix2 p q)) = rd_v27 V c (((cfg2.win 4).blk t).view.emb (ix2 p q))
    refine congrArg (rd_v27 V c) (funext fun a => Fin.ext ?_)
    match a with
    | ⟨0, _⟩ =>
      show win2_0.index t (0 : Fin 2) * 4000 + 1 * p.val = win2_4.index t (0 : Fin 2) * 4000 + 1 * p.val
      omega
    | ⟨1, _⟩ =>
      show win2_0.index t (1 : Fin 2) * 64 + 1 * q.val = win2_4.index t (1 : Fin 2) * 64 + 1 * q.val
      omega
  · -- the scaled-feature entry
    show rd_v23 V c (((cfg2.win 1).blk t).view.emb (ix2 p q)) = rd_v23 V c (((cfg2.win 4).blk t).view.emb (ix2 p q))
    refine congrArg (rd_v23 V c) (funext fun a => Fin.ext ?_)
    match a with
    | ⟨0, _⟩ =>
      show win2_1.index t (0 : Fin 2) * 4000 + 1 * p.val = win2_4.index t (0 : Fin 2) * 4000 + 1 * p.val
      omega
    | ⟨1, _⟩ =>
      show win2_1.index t (1 : Fin 2) * 64 + 1 * q.val = win2_4.index t (1 : Fin 2) * 64 + 1 * q.val
      omega
  · -- the bias entry: lane `q` of the one row
    show rd_v28 V c (((cfg2.win 3).blk t).view.emb (ix2 (0 : Fin 1) q))
      = rd_v28 V c (ix2 (0 : Fin 1) (((cfg2.win 4).blk t).view.emb (ix2 p q) 1))
    refine congrArg (rd_v28 V c) (funext fun a => Fin.ext ?_)
    match a with
    | ⟨0, _⟩ =>
      show win2_3.index t (0 : Fin 2) * 1 + 1 * 0 = 0
      omega
    | ⟨1, _⟩ =>
      show win2_3.index t (1 : Fin 2) * 64 + 1 * q.val = win2_4.index t (1 : Fin 2) * 64 + 1 * q.val
      omega

/-- An index of the result is in point `t`'s block iff each coordinate is in the block's range on its axis. -/
theorem mem_blk (t : Fin cfg2.N) (i : S100000x64.Idx) :
    i ∈ ((cfg2.win 4).blk t).view.set
      ↔ ∀ a : Fin 2, win2_4.index t a * S4000x64.size a ≤ (i a).val
          ∧ (i a).val < win2_4.index t a * S4000x64.size a + S4000x64.size a := by
  show i ∈ ((View.whole main_v29).slice (win2_4.rect t)).set ↔ _
  rw [View.set_slice_whole, Rect.mem_set_unit]
  exact Iff.rfl

/-- The blocks tile the result: row `r` is in the block of point `r / 4000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  have ht : (i 0).val / 4000 < cfg2.N := by rw [hN]; omega
  refine ⟨⟨(i 0).val / 4000, ht⟩, flush2_4 _, ?_⟩
  rw [mem_blk]
  obtain ⟨-, -, -, -, -, -, -, -, e40, e41⟩ := idx_facts ⟨(i 0).val / 4000, ht⟩
  have e40' : win2_4.index ⟨(i 0).val / 4000, ht⟩ (0 : Fin 2) = (i 0).val / 4000 := e40
  intro a
  match a with
  | ⟨0, _⟩ =>
    show win2_4.index ⟨(i 0).val / 4000, ht⟩ (0 : Fin 2) * 4000 ≤ (i 0).val
      ∧ (i 0).val < win2_4.index ⟨(i 0).val / 4000, ht⟩ (0 : Fin 2) * 4000 + 4000
    omega
  | ⟨1, _⟩ =>
    show win2_4.index ⟨(i 0).val / 4000, ht⟩ (1 : Fin 2) * 64 ≤ (i 1).val
      ∧ (i 1).val < win2_4.index ⟨(i 0).val / 4000, ht⟩ (1 : Fin 2) * 64 + 64
    omega

/-- The result array after the region. -/
abbrev res (c : Dev nD) : S100000x64.Idx → EReal := (dat2 (F := Ideal) V c).arrAt 4 cfg2.N

/-- After the last point the result array is `whole`. -/
theorem res_eq (c : Dev nD) : res V c = whole V c :=
  (dat2 (F := Ideal) V c).arrAt_eq_of_cover 4 (whole V c) (fun t _ => flushed_eq V c t) cover

/-- After the region, the result array at `(v, q)`. -/
theorem final (c : Dev nD) (v : Fin 100000) (q : Fin 64) :
    res V c (ix2 v q)
      = rd_v16 V c (ix2 v (0 : Fin 1)) * (rd_v27 V c (ix2 v q) + rd_v23 V c (ix2 v q))
          + rd_v28 V c (ix2 (0 : Fin 1) q) := by
  rw [res_eq]

end Cert.KernelIdeal.KReg2

end
-- ==== Proof.KValue.lean ====
/-
  The idealized kernel program's result as the specification's network.

  The fold through @main's segments is followed from the launch to the result, and at every boundary the buffers
  the next segment reads are named. Under the hypotheses that the five float arguments are real-valued and every
  source word is a node number: the column `dinv` holds one over the square root of the degree; the first region
  leaves `(x · W1) · dinv`, row by row; the rows taken at the edges' sources and summed at their destinations are the
  specification's row sums of those scaled features; the second region forms the first layer, takes its positive
  part, multiplies by `W2` and scales by `dinv` again; the second round of row sums and the third region form the
  second layer. Each step is the image of a real number, so the arithmetic is done in the reals.
-/
import proofs.«408347_j4329327034972_2_alg».proof.Proof.Gen.KernelIdeal.Frame
import proofs.«408347_j4329327034972_2_alg».proof.Proof.KView
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.KFold
import proofs.«408347_j4329327034972_2_alg».proof.Proof.KHost0
import proofs.«408347_j4329327034972_2_alg».proof.Proof.KTake1
import proofs.«408347_j4329327034972_2_alg».proof.Proof.KTake2
import proofs.«408347_j4329327034972_2_alg».proof.Proof.KReg0
import proofs.«408347_j4329327034972_2_alg».proof.Proof.KReg1
import proofs.«408347_j4329327034972_2_alg».proof.Proof.KReg2

set_option maxRecDepth 16384

noncomputable section

open scoped BigOperators

namespace Cert.KernelIdeal.KValue

open Cert.KernelIdeal Cert.KernelIdeal.Gen Cert.KernelIdeal.KView Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments as launched -/

abbrev a0 (c : Dev nD) : S100000x256.Idx → EReal := m ((c.tc : Thread nD τ).loc main_arg0)
abbrev a1 (c : Dev nD) : S2x1600000.Idx → BitVec 32 := m ((c.tc : Thread nD τ).loc main_arg1)
abbrev a2 (c : Dev nD) : S256x128.Idx → EReal := m ((c.tc : Thread nD τ).loc main_arg2)
abbrev a3 (c : Dev nD) : S128.Idx → EReal := m ((c.tc : Thread nD τ).loc main_arg3)
abbrev a4 (c : Dev nD) : S128x64.Idx → EReal := m ((c.tc : Thread nD τ).loc main_arg4)
abbrev a5 (c : Dev nD) : S64.Idx → EReal := m ((c.tc : Thread nD τ).loc main_arg5)

/-- The scaled features of the first layer, over the reals. -/
abbrev hs1R (c : Dev nD) (u : Fin 100000) (j : Fin 128) : ℝ :=
  featR (mat (a0 m c)) (mat (a2 m c)) u j * dinvR (a1 m c) u

/-- The scaled features of the second layer, over the reals. -/
abbrev hs2R (c : Dev nD) (u : Fin 100000) (j : Fin 64) : ℝ :=
  featR (act1R (a0 m c) (a1 m c) (a2 m c) (a3 m c)) (mat (a4 m c)) u j * dinvR (a1 m c) u

/-! ## At the first region's entry -/

theorem x_V1 (c : Dev nD) : rd_arg0 (V1 m ρ) c = a0 m c := KHost0.keep_arg0 (W0 m ρ) c
theorem w1_V1 (c : Dev nD) : rd_arg2 (V1 m ρ) c = a2 m c := KHost0.keep_arg2 (W0 m ρ) c
theorem b1_V1 (c : Dev nD) : rd_arg3 (V1 m ρ) c = a3 m c := KHost0.keep_arg3 (W0 m ρ) c
theorem w2_V1 (c : Dev nD) : rd_arg4 (V1 m ρ) c = a4 m c := KHost0.keep_arg4 (W0 m ρ) c
theorem b2_V1 (c : Dev nD) : rd_arg5 (V1 m ρ) c = a5 m c := KHost0.keep_arg5 (W0 m ρ) c
theorem dinv_V1 (c : Dev nD) (v : Fin 100000) :
    rd_v16 (V1 m ρ) c (ix2 v (0 : Fin 1)) = ((dinvR (a1 m c) v : ℝ) : EReal) := KHost0.dinv (W0 m ρ) c v
theorem src_V1 (c : Dev nD) (e : Fin 1600000) : rd_v1 (V1 m ρ) c (ix1 e) = srcWord (a1 m c) e :=
  KHost0.src (W0 m ρ) c e
theorem dst_V1 (c : Dev nD) (e : Fin 1600000) : rd_v3 (V1 m ρ) c (ix1 e) = dstWord (a1 m c) e :=
  KHost0.dst (W0 m ρ) c e

/-! ## After the first region -/

/-- The first region leaves the scaled features. -/
theorem hs1 (c : Dev nD) (h0 : RealValued (a0 m c)) (h2 : RealValued (a2 m c)) (v : Fin 100000) (q : Fin 128) :
    rd_v17 (V2 m ρ) c (ix2 v q) = ((hs1R m c v q : ℝ) : EReal) := by
  rw [KFold.res0 m ρ c]
  refine (KReg0.final (V1 m ρ) c v q).trans ?_
  rw [x_V1, w1_V1, dinv_V1]
  simp only [h0.mat_eq, h2.mat_eq]
  rw [feat_coe, ← EReal.coe_mul]

theorem src_V2 (c : Dev nD) (e : Fin 1600000) : rd_v1 (V2 m ρ) c (ix1 e) = srcWord (a1 m c) e := by
  rw [KFold.keep0_v1]; exact src_V1 m ρ c e
theorem dst_V2 (c : Dev nD) (e : Fin 1600000) : rd_v3 (V2 m ρ) c (ix1 e) = dstWord (a1 m c) e := by
  rw [KFold.keep0_v3]; exact dst_V1 m ρ c e

/-! ## At the second region's entry -/

theorem dinv_V4 (c : Dev nD) (v : Fin 100000) :
    rd_v16 (V4 m ρ) c (ix2 v (0 : Fin 1)) = ((dinvR (a1 m c) v : ℝ) : EReal) := by
  rw [show rd_v16 (V4 m ρ) c = rd_v16 (V2 m ρ) c from KTake1.keep_v16 (W2 m ρ) c, KFold.keep0_v16]
  exact dinv_V1 m ρ c v
theorem hs1_V4 (c : Dev nD) : rd_v17 (V4 m ρ) c = rd_v17 (V2 m ρ) c := KTake1.keep_v17 (W2 m ρ) c
theorem w2_V4 (c : Dev nD) : rd_arg4 (V4 m ρ) c = a4 m c := by
  rw [show rd_arg4 (V4 m ρ) c = rd_arg4 (V2 m ρ) c from KTake1.keep_arg4 (W2 m ρ) c, KFold.keep0_arg4]
  exact w2_V1 m ρ c
theorem b1_V4 (c : Dev nD) (k : Fin 128) : rd_v22 (V4 m ρ) c (ix2 (0 : Fin 1) k) = a3 m c (ix1 k) := by
  refine (KTake1.bias (W2 m ρ) c k).trans ?_
  show rd_arg3 (V2 m ρ) c (ix1 k) = _
  rw [KFold.keep0_arg3, b1_V1]

/-- The first round of row sums. -/
theorem agg1 (c : Dev nD) (h0 : RealValued (a0 m c)) (h2 : RealValued (a2 m c)) (hs : SrcInRange (a1 m c))
    (v : Fin 100000) (k : Fin 128) :
    rd_v21 (V4 m ρ) c (ix2 v k)
      = ((aggR (srcRow (a1 m c)) (dstInt (a1 m c)) (hs1R m c) v k : ℝ) : EReal) := by
  refine (KTake1.agg (W2 m ρ) c (fun e => ?_) v k).trans ?_
  · show 0 ≤ (rd_v1 (V2 m ρ) c (ix1 e)).toInt ∧ (rd_v1 (V2 m ρ) c (ix1 e)).toInt < 100000
    rw [src_V2]; exact hs e
  · rw [← agg_coe]
    refine congrArg ((0 : EReal) + ·) (Finset.sum_congr rfl fun e _ => ?_)
    show (if (rd_v3 (V2 m ρ) c (ix1 e)).toInt = (v.val : ℤ)
      then rd_v17 (V2 m ρ) c (ix2 (rowOf (wrapWord (rd_v1 (V2 m ρ) c (ix1 e)))) k) else 0) = _
    rw [dst_V2, src_V2, hs1 m ρ c h0 h2]
    rfl

/-! ## After the second region -/

/-- The second region leaves the second layer's scaled features. -/
theorem hs2 (c : Dev nD) (h0 : RealValued (a0 m c)) (h2 : RealValued (a2 m c)) (h3 : RealValued (a3 m c))
    (h4 : RealValued (a4 m c)) (hs : SrcInRange (a1 m c)) (v : Fin 100000) (q : Fin 64) :
    rd_v23 (V5 m ρ) c (ix2 v q) = ((hs2R m c v q : ℝ) : EReal) := by
  rw [KFold.res1 m ρ c]
  refine (KReg1.final (V4 m ρ) c v q).trans ?_
  rw [dinv_V4, hs1_V4, w2_V4]
  have hk : ∀ k : Fin 128,
      max (((dinvR (a1 m c) v : ℝ) : EReal) * (rd_v21 (V4 m ρ) c (ix2 v k) + rd_v17 (V2 m ρ) c (ix2 v k))
          + rd_v22 (V4 m ρ) c (ix2 (0 : Fin 1) k)) 0
        = ((act1R (a0 m c) (a1 m c) (a2 m c) (a3 m c) v k : ℝ) : EReal) := fun k => by
    rw [agg1 m ρ c h0 h2 hs, hs1 m ρ c h0 h2, b1_V4, h3.vec_eq, layer_scaled_coe, max_coe_zero]
    rfl
  simp only [hk, h4.mat_eq]
  rw [feat_coe, ← EReal.coe_mul]

theorem src_V5 (c : Dev nD) (e : Fin 1600000) : rd_v1 (V5 m ρ) c (ix1 e) = srcWord (a1 m c) e := by
  rw [KFold.keep1_v1, show rd_v1 (V4 m ρ) c = rd_v1 (V2 m ρ) c from KTake1.keep_v1 (W2 m ρ) c]
  exact src_V2 m ρ c e
theorem dst_V5 (c : Dev nD) (e : Fin 1600000) : rd_v3 (V5 m ρ) c (ix1 e) = dstWord (a1 m c) e := by
  rw [KFold.keep1_v3, show rd_v3 (V4 m ρ) c = rd_v3 (V2 m ρ) c from KTake1.keep_v3 (W2 m ρ) c]
  exact dst_V2 m ρ c e

/-! ## At the third region's entry -/

theorem dinv_V7 (c : Dev nD) (v : Fin 100000) :
    rd_v16 (V7 m ρ) c (ix2 v (0 : Fin 1)) = ((dinvR (a1 m c) v : ℝ) : EReal) := by
  rw [show rd_v16 (V7 m ρ) c = rd_v16 (V5 m ρ) c from KTake2.keep_v16 (W5 m ρ) c, KFold.keep1_v16]
  exact dinv_V4 m ρ c v
theorem hs2_V7 (c : Dev nD) : rd_v23 (V7 m ρ) c = rd_v23 (V5 m ρ) c := KTake2.keep_v23 (W5 m ρ) c
theorem b2_V7 (c : Dev nD) (q : Fin 64) : rd_v28 (V7 m ρ) c (ix2 (0 : Fin 1) q) = a5 m c (ix1 q) := by
  refine (KTake2.bias (W5 m ρ) c q).trans ?_
  show rd_arg5 (V5 m ρ) c (ix1 q) = _
  rw [KFold.keep1_arg5, show rd_arg5 (V4 m ρ) c = rd_arg5 (V2 m ρ) c from KTake1.keep_arg5 (W2 m ρ) c,
    KFold.keep0_arg5, b2_V1]

/-- The second round of row sums. -/
theorem agg2 (c : Dev nD) (h0 : RealValued (a0 m c)) (h2 : RealValued (a2 m c)) (h3 : RealValued (a3 m c))
    (h4 : RealValued (a4 m c)) (hs : SrcInRange (a1 m c)) (v : Fin 100000) (q : Fin 64) :
    rd_v27 (V7 m ρ) c (ix2 v q)
      = ((aggR (srcRow (a1 m c)) (dstInt (a1 m c)) (hs2R m c) v q : ℝ) : EReal) := by
  refine (KTake2.agg (W5 m ρ) c (fun e => ?_) v q).trans ?_
  · show 0 ≤ (rd_v1 (V5 m ρ) c (ix1 e)).toInt ∧ (rd_v1 (V5 m ρ) c (ix1 e)).toInt < 100000
    rw [src_V5]; exact hs e
  · rw [← agg_coe]
    refine congrArg ((0 : EReal) + ·) (Finset.sum_congr rfl fun e _ => ?_)
    show (if (rd_v3 (V5 m ρ) c (ix1 e)).toInt = (v.val : ℤ)
      then rd_v23 (V5 m ρ) c (ix2 (rowOf (wrapWord (rd_v1 (V5 m ρ) c (ix1 e)))) q) else 0) = _
    rw [dst_V5, src_V5, hs2 m ρ c h0 h2 h3 h4 hs]
    rfl

/-! ## The result -/

/-- After the third region the result array holds the network's output. -/
theorem result (c : Dev nD) (h0 : RealValued (a0 m c)) (h2 : RealValued (a2 m c)) (h3 : RealValued (a3 m c))
    (h4 : RealValued (a4 m c)) (h5 : RealValued (a5 m c)) (hs : SrcInRange (a1 m c)) (v : Fin 100000) (q : Fin 64) :
    rd_v29 (V8 m ρ) c (ix2 v q)
      = ((outR (a0 m c) (a1 m c) (a2 m c) (a3 m c) (a4 m c) (a5 m c) v q : ℝ) : EReal) := by
  rw [KFold.res2 m ρ c]
  refine (KReg2.final (V7 m ρ) c v q).trans ?_
  rw [dinv_V7, hs2_V7, agg2 m ρ c h0 h2 h3 h4 hs, hs2 m ρ c h0 h2 h3 h4 hs, b2_V7, h5.vec_eq, layer_scaled_coe]
  rfl

end Cert.KernelIdeal.KValue

end
-- ==== Proof.RDinv.lean ====
/-
  The reference's edge words, degrees and `dinv`.

  The reference cuts the two rows of the edge table, moves negative words up by the number of nodes where it uses
  them as positions, counts into a vector of ones how many edges have each node as their moved destination, and takes
  one over the square root. It does so twice, once per layer, with the same result.
-/
import proofs.«408347_j4329327034972_2_alg».proof.Proof.Gen.ReferenceIdeal.Read
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibRowsScatter
import proofs.«408347_j4329327034972_2_alg».proof.Proof.LibVecScatter
import proofs.«408347_j4329327034972_2_alg».proof.Proof.LibGatherRows
import proofs.«408347_j4329327034972_2_alg».proof.Proof.LibKeepdims
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RDinv

open Cert.ReferenceIdeal Cert.ReferenceIdeal.Read Cert.Gcn
open Idealize.ShloMosaic Idealize.ShloMosaic.ValueIdx

/-- Cutting row 0 and dropping the unit axis reads the table at row 0 of the same column. -/
private theorem idx_row0 (e : Fin 1600000) : idx_main_v0 (idx_main_v1 (ix1 e)) = ix2 (0 : Fin 2) e := by
  funext a
  match a with
  | ⟨0, _⟩ => rfl
  | ⟨1, _⟩ => exact Fin.ext (Nat.mod_eq_of_lt e.isLt)

/-- Cutting row 1 and dropping the unit axis reads the table at row 1 of the same column. -/
private theorem idx_row1 (e : Fin 1600000) : idx_main_v2 (idx_main_v3 (ix1 e)) = ix2 (1 : Fin 2) e := by
  funext a
  match a with
  | ⟨0, _⟩ => rfl
  | ⟨1, _⟩ => exact Fin.ext (Nat.mod_eq_of_lt e.isLt)

/-- The vector of source words is row 0 of the edge table. -/
theorem src (x1 : IVec S2x1600000 32) (e : Fin 1600000) : val_main_v1 (F := Ideal) x1 (ix1 e) = srcWord x1 e := by
  rw [val_main_v1_apply, val_main_v0_apply, idx_row0]
  rfl

/-- The vector of destination words is row 1 of the edge table. -/
theorem dst (x1 : IVec S2x1600000 32) (e : Fin 1600000) : val_main_v3 (F := Ideal) x1 (ix1 e) = dstWord x1 e := by
  rw [val_main_v3_apply, val_main_v2_apply, idx_row1]
  rfl

/-- The column of moved destination words, at a position, is the position of the vector it repeats. -/
private theorem idx_col11 (e : Fin 1600000) : idx_main_v11 (ix2 e (0 : Fin 1)) = ix1 e := by
  funext a
  match a with
  | ⟨0, _⟩ => rfl

private theorem idx_col59 (e : Fin 1600000) : idx_main_v59 (ix2 e (0 : Fin 1)) = ix1 e := by
  funext a
  match a with
  | ⟨0, _⟩ => rfl

/-- The first layer's column of positions holds the moved destination words. -/
private theorem moved1 (x1 : IVec S2x1600000 32) (e : Fin 1600000) :
    val_main_v11 (F := Ideal) x1 (ix2 e (0 : Fin 1)) = wrapWord (dstWord x1 e) := by
  rw [val_main_v11_apply, idx_col11, val_main_v10_apply, val_main_v7_apply, val_main_v9_apply, val_main_v6_apply,
    val_main_c_apply, val_main_v8_apply, val_main_c_0_apply, dst]
  rfl

/-- The second layer's column of positions holds the moved destination words. -/
private theorem moved2 (x1 : IVec S2x1600000 32) (e : Fin 1600000) :
    val_main_v59 (F := Ideal) x1 (ix2 e (0 : Fin 1)) = wrapWord (dstWord x1 e) := by
  rw [val_main_v59_apply, idx_col59, val_main_v58_apply, val_main_v55_apply, val_main_v57_apply, val_main_v54_apply,
    val_main_c_10_apply, val_main_v56_apply, val_main_c_11_apply, dst]
  rfl

/-- Ones added into a vector of ones at the moved destination words: entry `v` is one plus the number of edges whose
    moved destination word is `v`, the degree. -/
private theorem count_read (x1 : IVec S2x1600000 32) (x : FVec Ideal S100000 .f32) (idx : IVec S1600000x1 32)
    (upd : FVec Ideal S1600000 .f32) (hx : ∀ v : Fin 100000, x (ix1 v) = (1 : EReal))
    (hidx : ∀ e : Fin 1600000, idx (ix2 e (0 : Fin 1)) = wrapWord (dstWord x1 e))
    (hupd : ∀ e : Fin 1600000, upd (ix1 e) = (1 : EReal)) (v : Fin 100000) :
    Host.scatterAdd scatter_S100000_S1600000x1_S1600000_n_0_0_1 x idx upd (ix1 v) = ((degR x1 v : ℝ) : EReal) := by
  rw [Cert.LibVecScatter.vecScatterAdd_apply _ rfl rfl rfl rfl, hx, ← deg_from_one]
  refine congrArg ((1 : EReal) + ·) (Finset.sum_congr rfl fun e _ => ?_)
  rw [hidx, hupd]
  rfl

/-- `dinv` as the first layer computes it. -/
theorem dinv1 (x1 : IVec S2x1600000 32) (v : Fin 100000) : val_main_v14 (F := Ideal) x1 (ix1 v) = ((dinvR x1 v : ℝ) : EReal) := by
  have hdeg : val_main_v13 (F := Ideal) x1 (ix1 v) = ((degR x1 v : ℝ) : EReal) := by
    unfold val_main_v13
    refine count_read x1 _ _ _ (fun u => ?_) (moved1 x1) (fun e => ?_) v
    · rw [val_main_v5_apply, val_main_cst_apply]; exact ofBits_one_f32
    · rw [val_main_v12_apply, val_main_cst_1_apply]; exact ofBits_one_f32
  rw [val_main_v14_apply, Ideal.hostUnary_rsqrt_def, hdeg, rsqrt_deg]

/-- `dinv` as the second layer computes it. -/
theorem dinv2 (x1 : IVec S2x1600000 32) (v : Fin 100000) : val_main_v62 (F := Ideal) x1 (ix1 v) = ((dinvR x1 v : ℝ) : EReal) := by
  have hdeg : val_main_v61 (F := Ideal) x1 (ix1 v) = ((degR x1 v : ℝ) : EReal) := by
    unfold val_main_v61
    refine count_read x1 _ _ _ (fun u => ?_) (moved2 x1) (fun e => ?_) v
    · rw [val_main_v53_apply, val_main_cst_9_apply]; exact ofBits_one_f32
    · rw [val_main_v60_apply, val_main_cst_12_apply]; exact ofBits_one_f32
  rw [val_main_v62_apply, Ideal.hostUnary_rsqrt_def, hdeg, rsqrt_deg]

end Cert.ReferenceIdeal.RDinv

end
-- ==== Proof.RLayer1.lean ====
/-
  The reference's first layer and its positive part.

  The reference forms `h = x · W1`, gathers the rows of `h` at the edges' sources and scales each by
  `dinv (src) · dinv (dst)`, sums them at the edges' signed destinations into a zero array, adds `h · dinv²` and the
  bias, and takes the positive part. On every edge a sum keeps the destination is the node summed at, so this is the
  layer of the specification.
-/
import proofs.«408347_j4329327034972_2_alg».proof.Proof.Gen.ReferenceIdeal.Read
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibRowsScatter
import proofs.«408347_j4329327034972_2_alg».proof.Proof.LibVecScatter
import proofs.«408347_j4329327034972_2_alg».proof.Proof.LibGatherRows
import proofs.«408347_j4329327034972_2_alg».proof.Proof.LibKeepdims
import proofs.«408347_j4329327034972_2_alg».proof.Proof.RDinv
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RLayer1

open Cert.ReferenceIdeal Cert.ReferenceIdeal.Read Cert.Gcn
open Idealize.ShloMosaic Idealize.ShloMosaic.ValueIdx

/-- The feature product at `(u, k)`. -/
theorem feat_apply (x0 : FVec Ideal S100000x256 .f32) (x2 : FVec Ideal S256x128 .f32)
    (h0 : RealValued x0) (h2 : RealValued x2) (u : Fin 100000) (k : Fin 128) :
    val_main_v4 (F := Ideal) x0 x2 (ix2 u k) = ((featR (mat x0) (mat x2) u k : ℝ) : EReal) := by
  rw [val_main_v4_apply, ← feat_coe]
  refine Finset.sum_congr rfl (fun j _ => ?_)
  have hl : lidx_main_v4 (ix2 u k) j = ix2 u j := by
    funext a; match a with | ⟨0, _⟩ => rfl | ⟨1, _⟩ => rfl
  have hr : ridx_main_v4 (ix2 u k) j = ix2 j k := by
    funext a; match a with | ⟨0, _⟩ => rfl | ⟨1, _⟩ => rfl
  rw [hl, hr, h0.mat_eq, h2.mat_eq]

/-- The zero array. -/
theorem zero_apply (i : S100000x128.Idx) : val_main_v40 (F := Ideal) i = 0 := by
  rw [val_main_v40_apply, val_main_cst_8_apply]
  exact Ideal.ofBits_zero_f32

/-- The zero of the positive part. -/
theorem relu_zero_apply (i : S100000x128.Idx) : val_main_call0_v0 (F := Ideal) i = 0 := by
  rw [val_main_call0_v0_apply, val_main_call0_cst_apply]
  exact Ideal.ofBits_zero_f32

/-- The bias laid along the rows. -/
theorem bias_apply (x3 : FVec Ideal S128 .f32) (v : Fin 100000) (k : Fin 128) :
    val_main_v49 (F := Ideal) x3 (ix2 v k) = x3 (ix1 k) := by
  rw [val_main_v49_apply, val_main_v48_apply]
  refine congrArg x3 ?_
  funext a; match a with | ⟨0, _⟩ => rfl

/-- The moved source words, as the row gather reads them. -/
theorem wsrc_apply (x1 : IVec S2x1600000 32) (e : Fin 1600000) :
    val_main_v35 (F := Ideal) x1 (ix2 e (0 : Fin 1)) = wrapWord (srcWord x1 e) := by
  have hi : idx_main_v35 (ix2 e (0 : Fin 1)) = ix1 e := by
    funext a; match a with | ⟨0, _⟩ => rfl
  rw [val_main_v35_apply, hi, val_main_v34_apply, val_main_v31_apply, val_main_v33_apply, val_main_v30_apply,
    val_main_v32_apply, val_main_c_6_apply, val_main_c_7_apply, RDinv.src]
  rfl

/-- The moved source words, as the first vector gather reads them. -/
theorem wsrc_apply' (x1 : IVec S2x1600000 32) (e : Fin 1600000) :
    val_main_v20 (F := Ideal) x1 (ix2 e (0 : Fin 1)) = wrapWord (srcWord x1 e) := by
  have hi : idx_main_v20 (ix2 e (0 : Fin 1)) = ix1 e := by
    funext a; match a with | ⟨0, _⟩ => rfl
  rw [val_main_v20_apply, hi, val_main_v19_apply, val_main_v16_apply, val_main_v18_apply, val_main_v15_apply,
    val_main_v17_apply, val_main_c_2_apply, val_main_c_3_apply, RDinv.src]
  rfl

/-- The moved destination words, as the second vector gather reads them. -/
theorem wdst_apply (x1 : IVec S2x1600000 32) (e : Fin 1600000) :
    val_main_v27 (F := Ideal) x1 (ix2 e (0 : Fin 1)) = wrapWord (dstWord x1 e) := by
  have hi : idx_main_v27 (ix2 e (0 : Fin 1)) = ix1 e := by
    funext a; match a with | ⟨0, _⟩ => rfl
  rw [val_main_v27_apply, hi, val_main_v26_apply, val_main_v23_apply, val_main_v25_apply, val_main_v22_apply,
    val_main_v24_apply, val_main_c_4_apply, val_main_c_5_apply, RDinv.dst]
  rfl

/-- The destination words, not moved, as the row sum reads them. -/
theorem dst_apply (x1 : IVec S2x1600000 32) (e : Fin 1600000) :
    val_main_v41 (F := Ideal) x1 (ix2 e (0 : Fin 1)) = dstWord x1 e := by
  have hi : idx_main_v41 (ix2 e (0 : Fin 1)) = ix1 e := by
    funext a; match a with | ⟨0, _⟩ => rfl
  rw [val_main_v41_apply, hi, RDinv.dst]

/-- The gathered rows of the feature product. -/
theorem rows_apply (x0 : FVec Ideal S100000x256 .f32) (x1 : IVec S2x1600000 32) (x2 : FVec Ideal S256x128 .f32)
    (e : Fin 1600000) (k : Fin 128) :
    val_main_v36 (F := Ideal) x0 x1 x2 (ix2 e k) = val_main_v4 (F := Ideal) x0 x2 (ix2 (srcRow x1 e) k) := by
  unfold val_main_v36
  rw [Cert.LibGatherRows.gatherRows_apply (by decide : 0 < 100000)
    gather_S100000x128_S1600000x1_S1600000x128_1_0_n_n_0_1_1128 rfl rfl rfl rfl rfl, wsrc_apply]
  rfl

/-- A gather from a vector of 100000 entries at a column of words. -/
theorem take_apply (x : FVec Ideal S100000 .f32) (idx : IVec S1600000x1 32) (e : Fin 1600000) :
    Host.gather gather_S100000_S1600000x1_S1600000_n_0_n_n_0_1_1 x idx (ix1 e)
      = x (ix1 (rowOf (idx (ix2 e (0 : Fin 1))))) := by
  have hp : (ix1 e : S1600000.Idx) = Shape.Idx.ofFin e := by
    funext a; match a with | ⟨0, _⟩ => rfl
  have hq : (StableHlo.Predicate.ixP e : S1600000x1.Idx) = ix2 e (0 : Fin 1) := by
    funext a; match a with | ⟨0, _⟩ => rfl | ⟨1, _⟩ => rfl
  rw [hp, StableHlo.Predicate.gather_take gather_S100000_S1600000x1_S1600000_n_0_n_n_0_1_1 rfl rfl rfl rfl x idx e
    (by decide : 0 < 100000)]
  refine congrArg x ?_
  funext a
  match a with
  | ⟨0, _⟩ =>
    refine Fin.ext ?_
    show min (idx (StableHlo.Predicate.ixP e)).toInt.toNat (100000 - 1) = min (idx (ix2 e (0 : Fin 1))).toInt.toNat 99999
    rw [hq]

/-- The factor of edge `e`: `dinv` at its source times `dinv` at its moved, clamped destination. -/
theorem norm_apply (x1 : IVec S2x1600000 32) (e : Fin 1600000) (k : Fin 128) :
    val_main_v38 (F := Ideal) x1 (ix2 e k)
      = ((dinvR x1 (srcRow x1 e) : ℝ) : EReal) * ((dinvR x1 (rowOf (wrapWord (dstWord x1 e))) : ℝ) : EReal) := by
  have h38 : idx_main_v38 (ix2 e k) = ix2 e (0 : Fin 1) := by
    funext a; match a with | ⟨0, _⟩ => rfl | ⟨1, _⟩ => rfl
  have h37 : idx_main_v37 (ix2 e (0 : Fin 1)) = ix1 e := by
    funext a; match a with | ⟨0, _⟩ => rfl
  rw [val_main_v38_apply, h38, val_main_v37_apply, h37, val_main_v29_apply, Ideal.mulf_def]
  unfold val_main_v21 val_main_v28
  rw [take_apply, take_apply, wsrc_apply', wdst_apply, RDinv.dinv1, RDinv.dinv1]
  rfl

/-- `dinv²` laid along the columns. -/
theorem dinvsq_apply (x1 : IVec S2x1600000 32) (v : Fin 100000) (k : Fin 128) :
    val_main_v45 (F := Ideal) x1 (ix2 v k) = ((dinvR x1 v : ℝ) : EReal) * ((dinvR x1 v : ℝ) : EReal) := by
  have h45 : idx_main_v45 (ix2 v k) = ix2 v (0 : Fin 1) := by
    funext a; match a with | ⟨0, _⟩ => rfl | ⟨1, _⟩ => rfl
  have h44 : idx_main_v44 (ix2 v (0 : Fin 1)) = ix1 v := by
    funext a; match a with | ⟨0, _⟩ => rfl
  rw [val_main_v45_apply, h45, val_main_v44_apply, h44, val_main_v43_apply, Ideal.mulf_def, RDinv.dinv1]

/-- The row sum at `(v, k)`: zero plus, over the edges whose signed destination is `v`, the source's row of the
    feature product times the edge's factor. -/
theorem sum_apply (x0 : FVec Ideal S100000x256 .f32) (x1 : IVec S2x1600000 32) (x2 : FVec Ideal S256x128 .f32)
    (h0 : RealValued x0) (h2 : RealValued x2) (v : Fin 100000) (k : Fin 128) :
    val_main_v42 (F := Ideal) x0 x1 x2 (ix2 v k)
      = (0 : EReal) + ∑ e : Fin 1600000, (if dstInt x1 e = (v.val : ℤ)
          then ((featR (mat x0) (mat x2) (srcRow x1 e) k : ℝ) : EReal)
            * (((dinvR x1 (srcRow x1 e) : ℝ) : EReal) * ((dinvR x1 (rowOf (wrapWord (dstWord x1 e))) : ℝ) : EReal))
          else 0) := by
  unfold val_main_v42
  rw [Cert.LibRowsScatter.rowsScatterAdd_apply scatter_S100000x128_S1600000x1_S1600000x128_1_0_0_1 rfl rfl rfl rfl,
    zero_apply]
  refine congrArg ((0 : EReal) + ·) (Finset.sum_congr rfl (fun e _ => ?_))
  rw [dst_apply, val_main_v39_apply, Ideal.mulf_def, rows_apply, feat_apply x0 x2 h0 h2, norm_apply]
  rfl

/-- The first layer's activation at `(v, k)`, for real-valued arguments. -/
theorem act1 (x0 : FVec Ideal S100000x256 .f32) (x1 : IVec S2x1600000 32) (x2 : FVec Ideal S256x128 .f32) (x3 : FVec Ideal S128 .f32)
    (h0 : RealValued x0) (h2 : RealValued x2) (h3 : RealValued x3) (v : Fin 100000) (k : Fin 128) :
    val_main_v51 (F := Ideal) x0 x1 x2 x3 (ix2 v k) = ((act1R x0 x1 x2 x3 v k : ℝ) : EReal) := by
  rw [val_main_v51_apply, Ideal.maximumf_def, relu_zero_apply, val_main_v50_apply, Ideal.addf_def, val_main_v47_apply,
    Ideal.addf_def, val_main_v46_apply, Ideal.mulf_def, sum_apply x0 x1 x2 h0 h2, feat_apply x0 x2 h0 h2, dinvsq_apply,
    bias_apply, h3.vec_eq]
  -- on every edge the sum keeps, the destination word is the node `v`, so its moved, clamped row is `v`
  rw [layer_edgewise_coe (srcRow x1) (dstInt x1) (fun e => rowOf (wrapWord (dstWord x1 e))) (dinvR x1) (mat x0) (mat x2)
    (vec x3) v k (fun e he => rowOf_wrapWord_of_toInt (dstWord x1 e) v he), max_coe_zero]
  rfl

end Cert.ReferenceIdeal.RLayer1

end
-- ==== Proof.RLayer2.lean ====
/-
  The reference's second layer: the program's result.

  The second layer takes the first layer's activation `a` as its features: `h = a · W2`, the rows of `h` at the
  edges' sources scaled by `dinv (src) · dinv (dst)`, summed at the edges' signed destinations into a zero array, plus
  `h · dinv²`, plus the bias. On every edge a sum keeps the destination is the node summed at, so this is the layer
  of the specification over the activation.
-/
import proofs.«408347_j4329327034972_2_alg».proof.Proof.Gen.ReferenceIdeal.Read
import proofs.«408347_j4329327034972_2_alg».proof.Proof.Spec
import proofs.«408347_j4329327034972_2_alg».proof.Proof.Algebra
import proofs.«408347_j4329327034972_2_alg».proof.Proof.Words
import proofs.«408347_j4329327034972_2_alg».proof.Proof.LibRowsScatter
import proofs.«408347_j4329327034972_2_alg».proof.Proof.LibVecScatter
import proofs.«408347_j4329327034972_2_alg».proof.Proof.LibGatherRows
import proofs.«408347_j4329327034972_2_alg».proof.Proof.LibKeepdims
import proofs.«408347_j4329327034972_2_alg».proof.Proof.RDinv
import proofs.«408347_j4329327034972_2_alg».proof.Proof.RLayer1
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RLayer2

open Cert.ReferenceIdeal Cert.ReferenceIdeal.Read Cert.Gcn
open Idealize.ShloMosaic Idealize.ShloMosaic.ValueIdx

/-- A rank-1 index from its coordinate, in the two spellings. -/
theorem ix1_eq_ofFin {n : Nat} (p : Fin n) : (ix1 p : (⟨1, ![n]⟩ : Shape).Idx) = Shape.Idx.ofFin p := by
  funext a
  match a with
  | ⟨0, _⟩ => rfl

/-- Row `p` of a column, in the two spellings. -/
theorem ix2_zero_eq_ixP {n : Nat} (p : Fin n) :
    (ix2 p (0 : Fin 1) : (⟨2, ![n, 1]⟩ : Shape).Idx) = StableHlo.Predicate.ixP p := by
  funext a
  match a with
  | ⟨0, _⟩ => rfl
  | ⟨1, _⟩ => rfl

/-- The feature product `h = a · W2` at `(u, c)`. -/
theorem feat (x0 : FVec Ideal S100000x256 .f32) (x1 : IVec S2x1600000 32) (x2 : FVec Ideal S256x128 .f32) (x3 : FVec Ideal S128 .f32) (x4 : FVec Ideal S128x64 .f32)
    (h0 : RealValued x0) (h2 : RealValued x2) (h3 : RealValued x3) (h4 : RealValued x4)
    (u : Fin 100000) (c : Fin 64) :
    val_main_v52 (F := Ideal) x0 x1 x2 x3 x4 (ix2 u c)
      = ((featR (act1R x0 x1 x2 x3) (mat x4) u c : ℝ) : EReal) := by
  rw [val_main_v52_apply, ← feat_coe]
  refine Finset.sum_congr rfl fun k _ => ?_
  have el : lidx_main_v52 (ix2 u c) k = ix2 u k := funext fun a => Fin.ext (by
    match a with
    | ⟨0, _⟩ => rfl
    | ⟨1, _⟩ => rfl)
  have er : ridx_main_v52 (ix2 u c) k = ix2 k c := funext fun a => Fin.ext (by
    match a with
    | ⟨0, _⟩ => rfl
    | ⟨1, _⟩ => rfl)
  rw [el, er, RLayer1.act1 x0 x1 x2 x3 h0 h2 h3 u k, h4.mat_eq k c]

/-- The moved source words the row gather reads. -/
theorem srcMoved82 (x1 : IVec S2x1600000 32) (e : Fin 1600000) :
    val_main_v82 (F := Ideal) x1 (ix1 e) = wrapWord (srcWord x1 e) := by
  rw [val_main_v82_apply, val_main_v79_apply, val_main_v81_apply, val_main_v78_apply, val_main_v80_apply,
    val_main_c_17_apply, val_main_c_18_apply, RDinv.src]
  rfl

/-- The moved source words the first `dinv` gather reads. -/
theorem srcMoved67 (x1 : IVec S2x1600000 32) (e : Fin 1600000) :
    val_main_v67 (F := Ideal) x1 (ix1 e) = wrapWord (srcWord x1 e) := by
  rw [val_main_v67_apply, val_main_v64_apply, val_main_v66_apply, val_main_v63_apply, val_main_v65_apply,
    val_main_c_13_apply, val_main_c_14_apply, RDinv.src]
  rfl

/-- The moved destination words the second `dinv` gather reads. -/
theorem dstMoved74 (x1 : IVec S2x1600000 32) (e : Fin 1600000) :
    val_main_v74 (F := Ideal) x1 (ix1 e) = wrapWord (dstWord x1 e) := by
  rw [val_main_v74_apply, val_main_v71_apply, val_main_v73_apply, val_main_v70_apply, val_main_v72_apply,
    val_main_c_15_apply, val_main_c_16_apply, RDinv.dst]
  rfl

/-- A gather from a vector at a column of words, read at `p`: the vector at the word of row `p`, read signed and
    clamped into the vector. -/
theorem gatherVec_apply {α : Type} {N n w : Nat} (hN : 0 < N)
    (d : GatherDims (⟨1, ![N]⟩ : Shape) (⟨2, ![n, 1]⟩ : Shape) (⟨1, ![n]⟩ : Shape))
    (hcoll : d.collapsedSliceDims = [0]) (hob : d.operandBatchingDims = [])
    (hsim : d.startIndexMap = [0]) (hivd : d.indexVectorDim = 1)
    (x : (⟨1, ![N]⟩ : Shape).Idx → α) (idx : IVec (⟨2, ![n, 1]⟩ : Shape) w) (p : Fin n) :
    Host.gather d x idx (ix1 p) = x (ix1 (LibGatherRows.clampRow N hN (idx (ix2 p (0 : Fin 1))))) := by
  rw [ix1_eq_ofFin p, StableHlo.Predicate.gather_take d hcoll hob hsim hivd x idx p hN,
    ix1_eq_ofFin (LibGatherRows.clampRow N hN (idx (ix2 p (0 : Fin 1)))), ix2_zero_eq_ixP p]
  rfl

/-- The first factor of an edge's weight: `dinv` at the edge's source row. -/
theorem dinvSrc (x1 : IVec S2x1600000 32) (e : Fin 1600000) :
    val_main_v69 (F := Ideal) x1 (ix1 e) = ((dinvR x1 (srcRow x1 e) : ℝ) : EReal) := by
  unfold val_main_v69
  rw [gatherVec_apply (by decide) _ rfl rfl rfl rfl, val_main_v68_apply]
  have hi : idx_main_v68 (ix2 e (0 : Fin 1)) = ix1 e := funext fun a => Fin.ext (by
    match a with
    | ⟨0, _⟩ => rfl)
  rw [hi, srcMoved67]
  exact RDinv.dinv2 x1 (srcRow x1 e)

/-- The second factor of an edge's weight: `dinv` at the edge's moved, clamped destination. -/
theorem dinvDst (x1 : IVec S2x1600000 32) (e : Fin 1600000) :
    val_main_v76 (F := Ideal) x1 (ix1 e) = ((dinvR x1 (rowOf (wrapWord (dstWord x1 e))) : ℝ) : EReal) := by
  unfold val_main_v76
  rw [gatherVec_apply (by decide) _ rfl rfl rfl rfl, val_main_v75_apply]
  have hi : idx_main_v75 (ix2 e (0 : Fin 1)) = ix1 e := funext fun a => Fin.ext (by
    match a with
    | ⟨0, _⟩ => rfl)
  rw [hi, dstMoved74]
  exact RDinv.dinv2 x1 (rowOf (wrapWord (dstWord x1 e)))

/-- The row of `h` an edge reads: the row of its source. -/
theorem rowAt (x0 : FVec Ideal S100000x256 .f32) (x1 : IVec S2x1600000 32) (x2 : FVec Ideal S256x128 .f32) (x3 : FVec Ideal S128 .f32) (x4 : FVec Ideal S128x64 .f32)
    (h0 : RealValued x0) (h2 : RealValued x2) (h3 : RealValued x3) (h4 : RealValued x4)
    (e : Fin 1600000) (c : Fin 64) :
    val_main_v84 (F := Ideal) x0 x1 x2 x3 x4 (ix2 e c)
      = ((featR (act1R x0 x1 x2 x3) (mat x4) (srcRow x1 e) c : ℝ) : EReal) := by
  unfold val_main_v84
  rw [LibGatherRows.gatherRows_apply (by decide) _ rfl rfl rfl rfl rfl, val_main_v83_apply]
  have hi : idx_main_v83 (ix2 e (0 : Fin 1)) = ix1 e := funext fun a => Fin.ext (by
    match a with
    | ⟨0, _⟩ => rfl)
  rw [hi, srcMoved82]
  exact feat x0 x1 x2 x3 x4 h0 h2 h3 h4 (srcRow x1 e) c

/-- The rows summed at the edges' signed destinations into the zero array: entry `(v, q)` is zero plus, over the edges
    whose destination word's signed value is `v`, the source's row of `h` times `dinv (src) · dinv (dst')`. -/
theorem agg (x0 : FVec Ideal S100000x256 .f32) (x1 : IVec S2x1600000 32) (x2 : FVec Ideal S256x128 .f32) (x3 : FVec Ideal S128 .f32) (x4 : FVec Ideal S128x64 .f32)
    (h0 : RealValued x0) (h2 : RealValued x2) (h3 : RealValued x3) (h4 : RealValued x4)
    (v : Fin 100000) (q : Fin 64) :
    val_main_v90 (F := Ideal) x0 x1 x2 x3 x4 (ix2 v q)
      = (0 : EReal) + ∑ e : Fin 1600000, (if dstInt x1 e = (v.val : ℤ)
          then ((featR (act1R x0 x1 x2 x3) (mat x4) (srcRow x1 e) q : ℝ) : EReal)
            * (((dinvR x1 (srcRow x1 e) : ℝ) : EReal) * ((dinvR x1 (rowOf (wrapWord (dstWord x1 e))) : ℝ) : EReal))
          else 0) := by
  unfold val_main_v90
  rw [LibRowsScatter.rowsScatterAdd_apply _ rfl rfl rfl rfl, val_main_v88_apply, val_main_cst_19_apply]
  have hz : (FloatOps.ofBits .f32 0x00000000#32 : Ideal .f32) = 0 := Ideal.ofBits_zero_f32
  rw [hz]
  refine congrArg (fun t => (0 : EReal) + t) (Finset.sum_congr rfl fun e _ => ?_)
  -- the index word of row `e` is the edge's destination word, not moved
  have hi : idx_main_v89 (ix2 e (0 : Fin 1)) = ix1 e := funext fun a => Fin.ext (by
    match a with
    | ⟨0, _⟩ => rfl)
  have hw : val_main_v89 (F := Ideal) x1 (ix2 e (0 : Fin 1)) = dstWord x1 e := by
    rw [val_main_v89_apply, hi, RDinv.dst]
  -- the update row `e` is the source's row of `h` times the edge's weight
  have h86 : idx_main_v86 (ix2 e q) = ix2 e (0 : Fin 1) := funext fun a => Fin.ext (by
    match a with
    | ⟨0, _⟩ => rfl
    | ⟨1, _⟩ => rfl)
  have h85 : idx_main_v85 (ix2 e (0 : Fin 1)) = ix1 e := funext fun a => Fin.ext (by
    match a with
    | ⟨0, _⟩ => rfl)
  have hu : val_main_v87 (F := Ideal) x0 x1 x2 x3 x4 (ix2 e q)
      = ((featR (act1R x0 x1 x2 x3) (mat x4) (srcRow x1 e) q : ℝ) : EReal)
        * (((dinvR x1 (srcRow x1 e) : ℝ) : EReal) * ((dinvR x1 (rowOf (wrapWord (dstWord x1 e))) : ℝ) : EReal)) := by
    rw [val_main_v87_apply, val_main_v86_apply, h86, val_main_v85_apply, h85, val_main_v77_apply,
      rowAt x0 x1 x2 x3 x4 h0 h2 h3 h4 e q, dinvSrc, dinvDst, Ideal.mulf_def, Ideal.mulf_def]
  rw [hw, hu]
  rfl

/-- The result at `(v, q)`, for real-valued arguments. -/
theorem out (x0 : FVec Ideal S100000x256 .f32) (x1 : IVec S2x1600000 32) (x2 : FVec Ideal S256x128 .f32) (x3 : FVec Ideal S128 .f32) (x4 : FVec Ideal S128x64 .f32) (x5 : FVec Ideal S64 .f32)
    (h0 : RealValued x0) (h2 : RealValued x2) (h3 : RealValued x3) (h4 : RealValued x4) (h5 : RealValued x5)
    (v : Fin 100000) (q : Fin 64) :
    val_main_v98 (F := Ideal) x0 x1 x2 x3 x4 x5 (ix2 v q) = ((outR x0 x1 x2 x3 x4 x5 v q : ℝ) : EReal) := by
  -- the node's own term: `h (v, q) · (dinv v · dinv v)`
  have h93 : idx_main_v93 (ix2 v q) = ix2 v (0 : Fin 1) := funext fun a => Fin.ext (by
    match a with
    | ⟨0, _⟩ => rfl
    | ⟨1, _⟩ => rfl)
  have h92 : idx_main_v92 (ix2 v (0 : Fin 1)) = ix1 v := funext fun a => Fin.ext (by
    match a with
    | ⟨0, _⟩ => rfl)
  have hself : val_main_v94 (F := Ideal) x0 x1 x2 x3 x4 (ix2 v q)
      = ((featR (act1R x0 x1 x2 x3) (mat x4) v q : ℝ) : EReal)
        * (((dinvR x1 v : ℝ) : EReal) * ((dinvR x1 v : ℝ) : EReal)) := by
    rw [val_main_v94_apply, val_main_v93_apply, h93, val_main_v92_apply, h92, val_main_v91_apply,
      feat x0 x1 x2 x3 x4 h0 h2 h3 h4 v q, RDinv.dinv2, Ideal.mulf_def, Ideal.mulf_def]
  -- the bias, laid along the rows
  have h97 : idx_main_v97 (ix2 v q) = ix2 (0 : Fin 1) q := funext fun a => Fin.ext (by
    match a with
    | ⟨0, _⟩ => rfl
    | ⟨1, _⟩ => rfl)
  have h96 : idx_main_v96 (ix2 (0 : Fin 1) q) = ix1 q := funext fun a => Fin.ext (by
    match a with
    | ⟨0, _⟩ => rfl)
  have hb : val_main_v97 (F := Ideal) x5 (ix2 v q) = ((vec x5 q : ℝ) : EReal) := by
    rw [val_main_v97_apply, h97, val_main_v96_apply, h96, h5.vec_eq q]
  rw [val_main_v98_apply, val_main_v95_apply, agg x0 x1 x2 x3 x4 h0 h2 h3 h4 v q, hself, hb,
    Ideal.addf_def, Ideal.addf_def]
  -- on every edge the sum keeps the destination word's signed value is `v`, so its moved, clamped row is `v`
  exact layer_edgewise_coe (srcRow x1) (dstInt x1) (fun e => rowOf (wrapWord (dstWord x1 e))) (dinvR x1)
    (act1R x0 x1 x2 x3) (mat x4) (vec x5) v q (fun e he => rowOf_wrapWord_of_toInt (dstWord x1 e) v he)

end Cert.ReferenceIdeal.RLayer2

end
-- ==== Proof.Pre.lean ====
/-
  What the precondition says of the arguments.

  The precondition is one bit: the conjunction, over the five real-valued arguments, of "every entry's absolute
  value is below +∞", and of "every word of row 0 of the edge table is at least 0 and below 100000" read signed.
  An extended real whose absolute value is below +∞ is a real number. So under the precondition every entry of the
  five arrays is a real number and every source word is a node number.
-/
import proofs.«408347_j4329327034972_2_alg».proof.Pre_finite_inputs
import proofs.«408347_j4329327034972_2_alg».proof.Proof.Spec
import Idealize.ShloMosaic.Lib.ReduceAll
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.PreDecode

open Cert.Pre_finite_inputs Cert.Gcn
open Idealize.ShloMosaic Idealize.ShloMosaic.ValueIdx

variable [Cert.Pre_finite_inputs.Facts]

/-- The scalar shape has one index. -/
private instance : Subsingleton S_.Idx := ⟨fun a b => funext fun d => d.elim0⟩

/-- An extended real whose absolute value `max x (-x)` is below `+∞` is neither infinity, so it is the image of its
    real part. -/
private theorem eq_coe_of_abs_lt_top (x : EReal)
    (h : Ideal.cmp .olt (max x (-x)) (Ideal.ofBits .f32 0x7F800000#32) = 1#1) : x = ((x.toReal : ℝ) : EReal) := by
  -- the word 0x7F800000 denotes +∞
  have htop : Ideal.ofBits .f32 0x7F800000#32 = (⊤ : EReal) := by simp [Ideal.ofBits, Ideal.ieee]
  rw [htop] at h
  simp only [Ideal.cmp, StableHlo.Predicate.ofBool_eq_one_iff, decide_eq_true_eq] at h
  induction x using EReal.rec with
  | bot => simp at h   -- max ⊥ (-⊥) = ⊤ is not below ⊤
  | coe r => rfl
  | top => simp at h   -- max ⊤ (-⊤) = ⊤ is not below ⊤

/-- If the conjunction over all entries of "the absolute value is below `+∞`" holds, every entry is a real number. -/
private theorem realValued_of_all {S : Shape} {axes : List (Fin S.rank)} (x : FVec Ideal S .f32)
    (hb : S_.BroadcastsInDim S (![] : Fin 0 → Fin S.rank)) (hr : S.ReducesTo axes S_) (h0 : 0 < S_.numel) (init : IVec S_ 1)
    (h : Host.reduce IntOp.andi (cmpf .olt (Host.absf x) (broadcastInDim S ![] hb (constant S_ .f32 0x7F800000#32)))
      init hr h0 ix0 = 1#1) :
    RealValued x := by
  intro i
  -- the conjunction is 1, so its term at `i` is 1; that term compares |x i| with the constant
  have hi := Host.reduce_andi_all _ init hr h0 ix0 h i
  exact eq_coe_of_abs_lt_top (x i) hi

/-- Row 0 of the edge table, cut out and flattened, read at `e`: the source word of edge `e`. -/
private theorem srcRow_read (x1 : IVec S2x1600000 32) (hs : S2x1600000.Slices ![0, 0] S1x1600000)
    (hc : S1x1600000.ShapeCasts S1600000) (e : Fin 1600000) :
    shapeCast S1600000 (extractStridedSlice S1x1600000 ![0, 0] x1 hs) hc (ix1 e) = srcWord x1 e := by
  -- position e of the flat row is position (0, e) of the 1 × 1600000 cut, which is position (0 + 0, 0 + e) of the table
  rw [shapeCast_apply _ hc (ix1 e) (ix2 (0 : Fin 1) e) (by
    rw [Shape.rowMajor_val_two, Shape.rowMajor_val_one]; show 0 * 1600000 + e.val = e.val; omega)]
  exact extractStridedSlice_apply ![0, 0] x1 hs (ix2 (0 : Fin 1) e) (ix2 (0 : Fin 2) e) (fun a => match a with
    | ⟨0, _⟩ => by show (0 : ℕ) = 0 + 0; rfl
    | ⟨1, _⟩ => by show e.val = 0 + e.val; omega)

/-- If the conjunction over all edges of "the source word is at least 0 and below 100000, signed" holds, every source
    word is a node number. -/
private theorem srcInRange_of_all (x1 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (h0 : 0 < S_.numel) (init : IVec S_ 1)
    (h : Host.reduce IntOp.andi
        (andi
          (cmpi .sge (shapeCast S1600000 (extractStridedSlice S1x1600000 ![0, 0] x1 hs) hc)
            (broadcastInDim S1600000 ![] hb (constantI S_ 32 0#32)))
          (cmpi .slt (shapeCast S1600000 (extractStridedSlice S1x1600000 ![0, 0] x1 hs) hc)
            (broadcastInDim S1600000 ![] hb (constantI S_ 32 100000#32))))
        init hr h0 ix0 = 1#1) :
    SrcInRange x1 := by
  intro e
  have he := Host.reduce_andi_all _ init hr h0 ix0 h (ix1 e)
  -- at edge e both comparisons are between the flat row's word and the constant
  have he' : IntOp.andi
      (IntOp.cmpi .sge (shapeCast S1600000 (extractStridedSlice S1x1600000 ![0, 0] x1 hs) hc (ix1 e)) 0#32)
      (IntOp.cmpi .slt (shapeCast S1600000 (extractStridedSlice S1x1600000 ![0, 0] x1 hs) hc (ix1 e)) 100000#32) = 1#1 := he
  rw [srcRow_read, IntOp.andi_eq_one, IntOp.cmpi_sge, IntOp.cmpi_slt] at he'
  have z : (0#32 : BitVec 32).toInt = 0 := by decide
  have n : (100000#32 : BitVec 32).toInt = 100000 := by decide
  rw [z, n] at he'
  exact he'

/-- Under the precondition the five float arguments are real-valued and every source word is a node number. -/
theorem decode (x0 : FVec Ideal S100000x256 .f32) (x1 : IVec S2x1600000 32) (x2 : FVec Ideal S256x128 .f32)
    (x3 : FVec Ideal S128 .f32) (x4 : FVec Ideal S128x64 .f32) (x5 : FVec Ideal S64 .f32)
    (h : Cert.Pre_finite_inputs.fn (F := Ideal) x0 x1 x2 x3 x4 x5 = fun _ => 1#1) :
    RealValued x0 ∧ RealValued x2 ∧ RealValued x3 ∧ RealValued x4 ∧ RealValued x5 ∧ SrcInRange x1 := by
  -- the one bit of the precondition, opened into its six conjuncts
  have e := congrFun h ix0
  dsimp only [Cert.Pre_finite_inputs.fn, Cert.Pre_finite_inputs.fn_part1, andi] at e
  simp only [IntOp.andi_eq_one] at e
  obtain ⟨⟨⟨⟨⟨h0, h2⟩, h3⟩, h4⟩, h5⟩, h1⟩ := e
  exact ⟨realValued_of_all x0 _ _ _ _ h0, realValued_of_all x2 _ _ _ _ h2, realValued_of_all x3 _ _ _ _ h3,
    realValued_of_all x4 _ _ _ _ h4, realValued_of_all x5 _ _ _ _ h5, srcInRange_of_all x1 _ _ _ _ _ _ h1⟩

end Cert.PreDecode

end
-- ==== Proof.lean ====
/-
  The certificate of a two-layer graph convolution (100000 nodes, 1600000 edges, features 256 → 128 → 64) computed by
  three tiled kernels with host gathers and row sums between them, against the plain reference.

  Both idealized programs compute, from arguments whose float entries are real numbers and whose source words are
  node numbers, the same real-valued network (`Cert.Gcn.outR`): the kernel program scales the rows of `X · W` by
  `dinv` before they are gathered and summed and scales the sum by `dinv` again, where the reference scales each
  edge's row by `dinv (src) · dinv (dst)`; every edge of a sum has the summed node as its destination, so the two
  agree. The hypothesis on the source words is needed because the kernel program's row lookup fills a row whose
  index is no node with a fixed pattern where the reference clamps the index. The three frames are the programs' runs
  with the values dropped; the idealization rewrote nothing.
-/
import proofs.«408347_j4329327034972_2_alg».proof.Defs
import proofs.«408347_j4329327034972_2_alg».proof.Proof.Gen.Kernel
import proofs.«408347_j4329327034972_2_alg».proof.Proof.Gen.Kernel.Skeleton
import proofs.«408347_j4329327034972_2_alg».proof.Proof.Gen.Kernel.Launch
import proofs.«408347_j4329327034972_2_alg».proof.Proof.Gen.Kernel.Points
import proofs.«408347_j4329327034972_2_alg».proof.Proof.Gen.Kernel.Frame
import proofs.«408347_j4329327034972_2_alg».proof.Proof.Gen.KernelIdeal
import proofs.«408347_j4329327034972_2_alg».proof.Proof.Gen.KernelIdeal.Skeleton
import proofs.«408347_j4329327034972_2_alg».proof.Proof.Gen.KernelIdeal.Launch
import proofs.«408347_j4329327034972_2_alg».proof.Proof.Gen.KernelIdeal.Points
import proofs.«408347_j4329327034972_2_alg».proof.Proof.Gen.KernelIdeal.Frame
import proofs.«408347_j4329327034972_2_alg».proof.Proof.Gen.ReferenceIdeal
import proofs.«408347_j4329327034972_2_alg».proof.Proof.Gen.ReferenceIdeal.Run
import proofs.«408347_j4329327034972_2_alg».proof.Proof.Gen.ReferenceIdeal.Read
import proofs.«408347_j4329327034972_2_alg».proof.Proof.Gen.Pre_finite_inputs
import proofs.«408347_j4329327034972_2_alg».proof.Proof.KernelRun
import proofs.«408347_j4329327034972_2_alg».proof.Proof.KValue
import proofs.«408347_j4329327034972_2_alg».proof.Proof.RLayer2
import proofs.«408347_j4329327034972_2_alg».proof.Proof.Pre
import Idealize.ShloMosaic.Adequacy
import Idealize.ShloMosaic.Init

noncomputable section

namespace Cert.Proof

open Idealize.ShloMosaic Idealize.SL.Sem Cert.Kernel

/-- The network's output as an array of extended reals. -/
def resultArr (x0 : (⟨2, ![100000, 256]⟩ : Shape).Idx → EReal) (x1 : Cert.Gcn.EdgeTable)
    (x2 : (⟨2, ![256, 128]⟩ : Shape).Idx → EReal) (x3 : (⟨1, ![128]⟩ : Shape).Idx → EReal)
    (x4 : (⟨2, ![128, 64]⟩ : Shape).Idx → EReal) (x5 : (⟨1, ![64]⟩ : Shape).Idx → EReal) :
    (⟨2, ![100000, 64]⟩ : Shape).Idx → EReal :=
  fun i => ((Cert.Gcn.outR x0 x1 x2 x3 x4 x5 (i 0) (i 1) : ℝ) : EReal)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the network's output of the arguments. -/
theorem algebraic : Cert.algebraic_KernelIdeal_ReferenceIdeal := by
  intro m ρ m' ρ' hpre hagree
  have hd := fun c => Cert.PreDecode.decode _ _ _ _ _ _ (hpre c)
  refine ⟨fun c => resultArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Gen.run_main (F := Ideal) m ρ)
    obtain ⟨h0, h2, h3, h4, h5, hs⟩ := hd c
    funext i
    obtain ⟨v, q, rfl⟩ : ∃ (v : Fin 100000) (q : Fin 64), i = ValueIdx.ix2 v q := ⟨i 0, i 1, ValueIdx.eq_ix2 i⟩
    exact Cert.KernelIdeal.KValue.result m ρ c h0 h2 h3 h4 h5 hs v q
  · refine (θ_run Cert.ReferenceIdeal.defs _ _).mono (fun r h c => ⟨(h c).1.trans ?_, (h c).2⟩)
      (Cert.ReferenceIdeal.Value.run (F := Ideal) m' ρ')
    obtain ⟨h0, h2, h3, h4, h5, hs⟩ := hd c
    rw [Cert.ReferenceIdeal.Read.val_main_v98_eq, (hagree c).1, (hagree c).2.1, (hagree c).2.2.1, (hagree c).2.2.2.1,
      (hagree c).2.2.2.2.1, (hagree c).2.2.2.2.2]
    funext i
    obtain ⟨v, q, rfl⟩ : ∃ (v : Fin 100000) (q : Fin 64), i = ValueIdx.ix2 v q := ⟨i 0, i 1, ValueIdx.eq_ix2 i⟩
    exact Cert.ReferenceIdeal.RLayer2.out _ _ _ _ _ _ h0 h2 h3 h4 h5 v q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
